-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn_part2 {F : FTy → Type} [FloatOps F] (main_v34 : IVec S16777216 32) (main_v35 : IVec S16777216 32) : IVec S_ 1 :=
  let main_v36 : IVec S16777216 1 := cmpi .eq main_v34 main_v35
  let main_c_11 : IVec S_ 32 := constantI S_ 32 1#32
  let main_v37 : IVec S16777216 32 := broadcastInDim S16777216 ![] bcast_S_S16777216 main_c_11
  let main_v38 : IVec S16777216 1 := cmpi .eq main_v34 main_v37
  let main_v39 : IVec S16777216 1 := ori main_v36 main_v38
  let main_c_12 : IVec S_ 1 := constantI S_ 1 1#1
  let main_v40 : IVec S_ 1 := (fun x v => Host.reduce IntOp.andi x v reducesTo_S16777216_S_d0 h_S_) main_v39 main_c_12
  main_v40

def fn_part1 {F : FTy → Type} [FloatOps F] (main_v15 : IVec S16777216 32) (main_v17 : IVec S16777216 32) : IVec S_ 1 :=
  let main_c_5 : IVec S_ 32 := constantI S_ 32 16#32
  let main_v18 : IVec S16777216 32 := broadcastInDim S16777216 ![] bcast_S_S16777216 main_c_5
  let main_v19 : IVec S16777216 32 := addi main_v17 main_v18
  let main_c_6 : IVec S_ 32 := constantI S_ 32 1#32
  let main_v20 : IVec S16777216 32 := broadcastInDim S16777216 ![] bcast_S_S16777216 main_c_6
  let main_v21 : IVec S16777216 32 := subi main_v19 main_v20
  let main_c_7 : IVec S_ 32 := constantI S_ 32 16#32
  let main_v22 : IVec S16777216 32 := broadcastInDim S16777216 ![] bcast_S_S16777216 main_c_7
  let main_v23 : IVec S16777216 32 := Host.divsi main_v21 main_v22
  let main_v24 : IVec S16777216 32 := Host.remsi main_v21 main_v22
  let main_v25 : IVec S16777216 32 := signi main_v21
  let main_v26 : IVec S16777216 32 := signi main_v22
  let main_v27 : IVec S16777216 1 := cmpi .ne main_v25 main_v26
  let main_c_8 : IVec S_ 32 := constantI S_ 32 0#32
  let main_v28 : IVec S16777216 32 := broadcastInDim S16777216 ![] bcast_S_S16777216 main_c_8
  let main_v29 : IVec S16777216 1 := cmpi .ne main_v24 main_v28
  let main_v30 : IVec S16777216 1 := andi main_v27 main_v29
  let main_c_9 : IVec S_ 32 := constantI S_ 32 1#32
  let main_v31 : IVec S16777216 32 := broadcastInDim S16777216 ![] bcast_S_S16777216 main_c_9
  let main_v32 : IVec S16777216 32 := subi main_v23 main_v31
  let main_v33 : IVec S16777216 32 := select main_v30 main_v32 main_v23
  let main_v34 : IVec S16777216 32 := subi main_v15 main_v33
  let main_c_10 : IVec S_ 32 := constantI S_ 32 0#32
  let main_v35 : IVec S16777216 32 := broadcastInDim S16777216 ![] bcast_S_S16777216 main_c_10
  fn_part2 (F := F) main_v34 main_v35

def fn {F : FTy → Type} [FloatOps F] (main_arg0 : IVec S16777216 32) (main_arg1 : IVec S16777216 32) (main_arg2 : IVec S16777216 32) : IVec S_ 1 :=
  let main_c : IVec S_ 32 := constantI S_ 32 16#32
  let main_v0 : IVec S16777216 32 := broadcastInDim S16777216 ![] bcast_S_S16777216 main_c
  let main_v1 : IVec S16777216 32 := addi main_arg0 main_v0
  let main_c_0 : IVec S_ 32 := constantI S_ 32 1#32
  let main_v2 : IVec S16777216 32 := broadcastInDim S16777216 ![] bcast_S_S16777216 main_c_0
  let main_v3 : IVec S16777216 32 := subi main_v1 main_v2
  let main_c_1 : IVec S_ 32 := constantI S_ 32 16#32
  let main_v4 : IVec S16777216 32 := broadcastInDim S16777216 ![] bcast_S_S16777216 main_c_1
  let main_v5 : IVec S16777216 32 := Host.divsi main_v3 main_v4
  let main_v6 : IVec S16777216 32 := Host.remsi main_v3 main_v4
  let main_v7 : IVec S16777216 32 := signi main_v3
  let main_v8 : IVec S16777216 32 := signi main_v4
  let main_v9 : IVec S16777216 1 := cmpi .ne main_v7 main_v8
  let main_c_2 : IVec S_ 32 := constantI S_ 32 0#32
  let main_v10 : IVec S16777216 32 := broadcastInDim S16777216 ![] bcast_S_S16777216 main_c_2
  let main_v11 : IVec S16777216 1 := cmpi .ne main_v6 main_v10
  let main_v12 : IVec S16777216 1 := andi main_v9 main_v11
  let main_c_3 : IVec S_ 32 := constantI S_ 32 1#32
  let main_v13 : IVec S16777216 32 := broadcastInDim S16777216 ![] bcast_S_S16777216 main_c_3
  let main_v14 : IVec S16777216 32 := subi main_v5 main_v13
  let main_v15 : IVec S16777216 32 := select main_v12 main_v14 main_v5
  let main_c_4 : IVec S_ 32 := constantI S_ 32 1#32
  let main_v16 : IVec S16777216 32 := broadcastInDim S16777216 ![] bcast_S_S16777216 main_c_4
  let main_v17 : IVec S16777216 32 := subi main_arg0 main_v16
  fn_part1 (F := F) main_v15 main_v17
-- ==== Kernel.lean ====
abbrev S16777216 : Shape := ⟨1, ![16777216]⟩
abbrev S_ : Shape := ⟨0, ![]⟩
abbrev S16777216x1 : Shape := ⟨2, ![16777216, 1]⟩
abbrev S1 : Shape := ⟨1, ![1]⟩
abbrev S1x1 : Shape := ⟨2, ![1, 1]⟩
abbrev S131072x128 : Shape := ⟨2, ![131072, 128]⟩
abbrev S8192x128 : Shape := ⟨2, ![8192, 128]⟩

abbrev nBuf : Space → Nat
  | .hbm => 41
  | .vmem => 8
  | .smem => 0
  | _ => 0

abbrev bufTy : (tb : Table) → Fin (tcTables nBuf tb) → BufTy
  | .hbm, ⟨0, _⟩ => ⟨S16777216, .i32⟩
  | .hbm, ⟨1, _⟩ => ⟨S16777216, .i32⟩
  | .hbm, ⟨2, _⟩ => ⟨S16777216, .i32⟩
  | .hbm, ⟨3, _⟩ => ⟨S_, .i32⟩
  | .hbm, ⟨4, _⟩ => ⟨S16777216, .i32⟩
  | .hbm, ⟨5, _⟩ => ⟨S16777216, .i32⟩
  | .hbm, ⟨6, _⟩ => ⟨S_, .i32⟩
  | .hbm, ⟨7, _⟩ => ⟨S16777216, .i32⟩
  | .hbm, ⟨8, _⟩ => ⟨S16777216, .i1⟩
  | .hbm, ⟨9, _⟩ => ⟨S16777216, .i32⟩
  | .hbm, ⟨10, _⟩ => ⟨S_, .i32⟩
  | .hbm, ⟨11, _⟩ => ⟨S_, .i32⟩
  | .hbm, ⟨12, _⟩ => ⟨S16777216, .i32⟩
  | .hbm, ⟨13, _⟩ => ⟨S16777216, .i32⟩
  | .hbm, ⟨14, _⟩ => ⟨S_, .i32⟩
  | .hbm, ⟨15, _⟩ => ⟨S16777216, .i32⟩
  | .hbm, ⟨16, _⟩ => ⟨S16777216, .i1⟩
  | .hbm, ⟨17, _⟩ => ⟨S_, .i32⟩
  | .hbm, ⟨18, _⟩ => ⟨S16777216, .i32⟩
  | .hbm, ⟨19, _⟩ => ⟨S16777216, .i32⟩
  | .hbm, ⟨20, _⟩ => ⟨S16777216, .i32⟩
  | .hbm, ⟨21, _⟩ => ⟨S16777216x1, .i32⟩
  | .hbm, ⟨22, _⟩ => ⟨S1, .i32⟩
  | .hbm, ⟨23, _⟩ => ⟨S_, .i32⟩
  | .hbm, ⟨24, _⟩ => ⟨S16777216x1, .i32⟩
  | .hbm, ⟨25, _⟩ => ⟨S16777216x1, .i1⟩
  | .hbm, ⟨26, _⟩ => ⟨S1x1, .i32⟩
  | .hbm, ⟨27, _⟩ => ⟨S16777216x1, .i32⟩
  | .hbm, ⟨28, _⟩ => ⟨S16777216x1, .i1⟩
  | .hbm, ⟨29, _⟩ => ⟨S16777216x1, .i1⟩
  | .hbm, ⟨30, _⟩ => ⟨S_, .i1⟩
  | .hbm, ⟨31, _⟩ => ⟨S16777216, .i1⟩
  | .hbm, ⟨32, _⟩ => ⟨S16777216, .i32⟩
  | .hbm, ⟨33, _⟩ => ⟨S_, .i32⟩
  | .hbm, ⟨34, _⟩ => ⟨S16777216, .i32⟩
  | .hbm, ⟨35, _⟩ => ⟨S16777216, .i32⟩
  | .hbm, ⟨36, _⟩ => ⟨S131072x128, .i32⟩
  | .hbm, ⟨37, _⟩ => ⟨S131072x128, .i32⟩
  | .hbm, ⟨38, _⟩ => ⟨S131072x128, .i32⟩
  | .hbm, ⟨39, _⟩ => ⟨S131072x128, .i32⟩
  | .hbm, ⟨40, _⟩ => ⟨S16777216, .i32⟩
  | .local _ .vmem, ⟨0, _⟩ => ⟨S8192x128, .i32⟩
  | .local _ .vmem, ⟨1, _⟩ => ⟨S8192x128, .i32⟩
  | .local _ .vmem, ⟨2, _⟩ => ⟨S8192x128, .i32⟩
  | .local _ .vmem, ⟨3, _⟩ => ⟨S8192x128, .i32⟩
  | .local _ .vmem, ⟨4, _⟩ => ⟨S8192x128, .i32⟩
  | .local _ .vmem, ⟨5, _⟩ => ⟨S8192x128, .i32⟩
  | .local _ .vmem, ⟨6, _⟩ => ⟨S8192x128, .i32⟩
  | .local _ .vmem, ⟨7, _⟩ => ⟨S8192x128, .i32⟩
  | _, _ => ⟨S16777216, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_call0_c : Ref sig .tc := ⟨.hbm, 10, rfl⟩
abbrev main_call0_call0_v0 : Ref sig .tc := ⟨.hbm, 11, rfl⟩
abbrev main_v5 : Ref sig .tc := ⟨.hbm, 12, rfl⟩
abbrev main_v6 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_c_4 : Ref sig .tc := ⟨.hbm, 33, rfl⟩
abbrev main_call1_v14 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16777216 : S_.BroadcastsInDim S16777216 (![] : Fin 0 → Fin S16777216.rank)
  natLt_1_32 : 1 < 32
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  bcast_S16777216_S16777216x1_0 : S16777216.BroadcastsInDim S16777216x1 (![0] : Fin 1 → Fin S16777216x1.rank)
  bcast_S_S16777216x1 : S_.BroadcastsInDim S16777216x1 (![] : Fin 0 → Fin S16777216x1.rank)
  bcast_S1_S1x1_1 : S1.BroadcastsInDim S1x1 (![1] : Fin 1 → Fin S1x1.rank)
  bcast_S1x1_S16777216x1_0_1 : S1x1.BroadcastsInDim S16777216x1 (![0, 1] : Fin 2 → Fin S16777216x1.rank)
  reducesTo_S16777216x1_S16777216_d1 : S16777216x1.ReducesTo [1] S16777216
  shapeCasts_S16777216_S131072x128 : S16777216.ShapeCasts S131072x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S131072x128_S16777216 : S131072x128.ShapeCasts S16777216
  gather_S16777216_S16777216x1_S16777216_n_0_n_n_0_1_1_wf : GatherDims.WF S16777216 S16777216x1 S16777216 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .i32 = 32 ∨ (Rect.block (s := S131072x128) S8192x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .i32 = 32 ∨ (Rect.block (s := S131072x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S131072x128.size a
  hwx0_2 : ∀ i : grid0.Coords, EltTy.bits .i32 = 32 ∨ (Rect.block (s := S131072x128) S8192x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S131072x128.size a
  hwx0_3 : ∀ i : grid0.Coords, EltTy.bits .i32 = 32 ∨ (Rect.block (s := S131072x128) S8192x128.size (cc0_transform_3 i) (hinb0_3 i)).WholeWords (EltTy.packing .i32)

variable [Facts₀]

def gather_S16777216_S16777216x1_S16777216_n_0_n_n_0_1_1 : GatherDims S16777216 S16777216x1 S16777216 where
  offsetDims := []
  collapsedSliceDims := [0]
  operandBatchingDims := []
  startIndicesBatchingDims := []
  startIndexMap := [0]
  indexVectorDim := 1
  sliceSizes := ![1]
  wf := gather_S16777216_S16777216x1_S16777216_n_0_n_n_0_1_1_wf

abbrev win0_0 : Pipeline.Window sig grid0 :=
  Pipeline.Window.ofSpec (Memref.whole main_v8) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩
abbrev S16777216x1 : Shape := ⟨2, ![16777216, 1]⟩

abbrev nBuf : Space → Nat
  | .hbm => 78
  | .vmem => 0
  | .smem => 0
  | _ => 0

abbrev bufTy : (tb : Table) → Fin (tcTables nBuf tb) → BufTy
  | .hbm, ⟨0, _⟩ => ⟨S16777216, .i32⟩
  | .hbm, ⟨1, _⟩ => ⟨S16777216, .i32⟩
  | .hbm, ⟨2, _⟩ => ⟨S16777216, .i32⟩
  | .hbm, ⟨3, _⟩ => ⟨S_, .i32⟩
  | .hbm, ⟨4, _⟩ => ⟨S16777216, .i32⟩
  | .hbm, ⟨5, _⟩ => ⟨S16777216, .i32⟩
  | .hbm, ⟨6, _⟩ => ⟨S_, .i32⟩
  | .hbm, ⟨7, _⟩ => ⟨S16777216, .i32⟩
  | .hbm, ⟨8, _⟩ => ⟨S16777216, .i32⟩
  | .hbm, ⟨9, _⟩ => ⟨S_, .i32⟩
  | .hbm, ⟨10, _⟩ => ⟨S_, .i32⟩
  | .hbm, ⟨11, _⟩ => ⟨S16777216, .i32⟩
  | .hbm, ⟨12, _⟩ => ⟨S16777216, .i32⟩
  | .hbm, ⟨13, _⟩ => ⟨S16777216, .i32⟩
  | .hbm, ⟨14, _⟩ => ⟨S_, .i32⟩
  | .hbm, ⟨15, _⟩ => ⟨S16777216, .i32⟩
  | .hbm, ⟨16, _⟩ => ⟨S16777216, .i1⟩
  | .hbm, ⟨17, _⟩ => ⟨S16777216, .i32⟩
  | .hbm, ⟨18, _⟩ => ⟨S16777216, .i32⟩
  | .hbm, ⟨19, _⟩ => ⟨S_, .i32⟩
  | .hbm, ⟨20, _⟩ => ⟨S16777216, .i32⟩
  | .hbm, ⟨21, _⟩ => ⟨S16777216, .i1⟩
  | .hbm, ⟨22, _⟩ => ⟨S16777216, .i1⟩
  | .hbm, ⟨23, _⟩ => ⟨S_, .i32⟩
  | .hbm, ⟨24, _⟩ => ⟨S16777216, .i32⟩
  | .hbm, ⟨25, _⟩ => ⟨S16777216, .i32⟩
  | .hbm, ⟨26, _⟩ => ⟨S16777216, .i32⟩
  | .hbm, ⟨27, _⟩ => ⟨S_, .i32⟩
  | .hbm, ⟨28, _⟩ => ⟨S16777216, .i32⟩
  | .hbm, ⟨29, _⟩ => ⟨S16777216, .i32⟩
  | .hbm, ⟨30, _⟩ => ⟨S_, .i32⟩
  | .hbm, ⟨31, _⟩ => ⟨S16777216, .i32⟩
  | .hbm, ⟨32, _⟩ => ⟨S16777216, .i32⟩
  | .hbm, ⟨33, _⟩ => ⟨S_, .i32⟩
  | .hbm, ⟨34, _⟩ => ⟨S16777216, .i32⟩
  | .hbm, ⟨35, _⟩ => ⟨S16777216, .i32⟩
  | .hbm, ⟨36, _⟩ => ⟨S_, .i32⟩
  | .hbm, ⟨37, _⟩ => ⟨S_, .i32⟩
  | .hbm, ⟨38, _⟩ => ⟨S16777216, .i32⟩
  | .hbm, ⟨39, _⟩ => ⟨S16777216, .i32⟩
  | .hbm, ⟨40, _⟩ => ⟨S16777216, .i32⟩
  | .hbm, ⟨41, _⟩ => ⟨S_, .i32⟩
  | .hbm, ⟨42, _⟩ => ⟨S16777216, .i32⟩
  | .hbm, ⟨43, _⟩ => ⟨S16777216, .i1⟩
  | .hbm, ⟨44, _⟩ => ⟨S16777216, .i32⟩
  | .hbm, ⟨45, _⟩ => ⟨S16777216, .i32⟩
  | .hbm, ⟨46, _⟩ => ⟨S_, .i32⟩
  | .hbm, ⟨47, _⟩ => ⟨S16777216, .i32⟩
  | .hbm, ⟨48, _⟩ => ⟨S16777216, .i1⟩
  | .hbm, ⟨49, _⟩ => ⟨S16777216, .i1⟩
  | .hbm, ⟨50, _⟩ => ⟨S_, .i32⟩
  | .hbm, ⟨51, _⟩ => ⟨S16777216, .i32⟩
  | .hbm, ⟨52, _⟩ => ⟨S16777216, .i32⟩
  | .hbm, ⟨53, _⟩ => ⟨S16777216, .i32⟩
  | .hbm, ⟨54, _⟩ => ⟨S16777216, .i32⟩
  | .hbm, ⟨55, _⟩ => ⟨S_, .i32⟩
  | .hbm, ⟨56, _⟩ => ⟨S_, .i32⟩
  | .hbm, ⟨57, _⟩ => ⟨S16777216, .i32⟩
  | .hbm, ⟨58, _⟩ => ⟨S16777216, .i32⟩
  | .hbm, ⟨59, _⟩ => ⟨S_, .i32⟩
  | .hbm, ⟨60, _⟩ => ⟨S16777216, .i32⟩
  | .hbm, ⟨61, _⟩ => ⟨S16777216, .i1⟩
  | .hbm, ⟨62, _⟩ => ⟨S_, .i32⟩
  | .hbm, ⟨63, _⟩ => ⟨S16777216, .i32⟩
  | .hbm, ⟨64, _⟩ => ⟨S16777216, .i32⟩
  | .hbm, ⟨65, _⟩ => ⟨S16777216, .i32⟩
  | .hbm, ⟨66, _⟩ => ⟨S16777216x1, .i32⟩
  | .hbm, ⟨67, _⟩ => ⟨S16777216, .i32⟩
  | .hbm, ⟨68, _⟩ => ⟨S_, .i32⟩
  | .hbm, ⟨69, _⟩ => ⟨S16777216, .i32⟩
  | .hbm, ⟨70, _⟩ => ⟨S16777216, .i1⟩
  | .hbm, ⟨71, _⟩ => ⟨S_, .i32⟩
  | .hbm, ⟨72, _⟩ => ⟨S16777216, .i32⟩
  | .hbm, ⟨73, _⟩ => ⟨S16777216, .i32⟩
  | .hbm, ⟨74, _⟩ => ⟨S_, .i32⟩
  | .hbm, ⟨75, _⟩ => ⟨S16777216, .i32⟩
  | .hbm, ⟨76, _⟩ => ⟨S16777216, .i32⟩
  | .hbm, ⟨77, _⟩ => ⟨S16777216, .i32⟩
  | _, _ => ⟨S16777216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_c_2 : Ref sig .tc := ⟨.hbm, 27, rfl⟩
abbrev main_v5 : Ref sig .tc := ⟨.hbm, 28, rfl⟩
abbrev main_v6 : Ref sig .tc := ⟨.hbm, 29, rfl⟩
abbrev main_c_3 : Ref sig .tc := ⟨.hbm, 30, rfl⟩
abbrev main_v7 : Ref sig .tc := ⟨.hbm, 31, rfl⟩
abbrev main_v8 : Ref sig .tc := ⟨.hbm, 32, rfl⟩
abbrev main_c_4 : Ref sig .tc := ⟨.hbm, 33, rfl⟩
abbrev main_v9 : Ref sig .tc := ⟨.hbm, 34, rfl⟩
abbrev main_v10 : Ref sig .tc := ⟨.hbm, 35, rfl⟩
abbrev main_c_5 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v11 : Ref sig .tc := ⟨.hbm, 53, rfl⟩
abbrev main_v12 : Ref sig .tc := ⟨.hbm, 54, rfl⟩
abbrev main_call2_call0_c : Ref sig .tc := ⟨.hbm, 55, rfl⟩
abbrev main_call2_call0_v0 : Ref sig .tc := ⟨.hbm, 56, rfl⟩
abbrev main_v13 : Ref sig .tc := ⟨.hbm, 57, rfl⟩
abbrev main_v14 : Ref sig .tc := ⟨.hbm, 58, rfl⟩
abbrev main_c_6 : Ref sig .tc := ⟨.hbm, 59, rfl⟩
abbrev main_v15 : Ref sig .tc := ⟨.hbm, 60, rfl⟩
abbrev main_v16 : Ref sig .tc := ⟨.hbm, 61, rfl⟩
abbrev main_c_7 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_c_8 : Ref sig .tc := ⟨.hbm, 68, rfl⟩
abbrev main_v22 : Ref sig .tc := ⟨.hbm, 69, rfl⟩
abbrev main_v23 : Ref sig .tc := ⟨.hbm, 70, rfl⟩
abbrev main_c_9 : Ref sig .tc := ⟨.hbm, 71, rfl⟩
abbrev main_v24 : Ref sig .tc := ⟨.hbm, 72, rfl⟩
abbrev main_v25 : Ref sig .tc := ⟨.hbm, 73, rfl⟩
abbrev main_c_10 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  bcast_S16777216_S16777216x1_0 : S16777216.BroadcastsInDim S16777216x1 (![0] : Fin 1 → Fin S16777216x1.rank)
  gather_S16777216_S16777216x1_S16777216_n_0_n_n_0_1_1_wf : GatherDims.WF S16777216 S16777216x1 S16777216 [] [0] [] [0] [] 1 ![1]

variable [Facts₀]

def gather_S16777216_S16777216x1_S16777216_n_0_n_n_0_1_1 : GatherDims S16777216 S16777216x1 S16777216 where
  offsetDims := []
  collapsedSliceDims := [0]
  operandBatchingDims := []
  startIndicesBatchingDims := []
  startIndexMap := [0]
  indexVectorDim := 1
  sliceSizes := ![1]
  wf := gather_S16777216_S16777216x1_S16777216_n_0_n_n_0_1_1_wf

class Facts : Prop extends Facts₀ where

variable [Facts]
-- ==== Proof.Spec.lean ====
/-
  The arithmetic of one decode step's page-slot assignment, stated once, free of any program.

  Every sequence `i` has a length `s i`. A sequence opens a new page exactly when its length has just passed a
  multiple of the page size 16, which the reference counts as `⌈s/16⌉ - ⌈(s-1)/16⌉` (two floor divisions of 32-bit
  words, `newPages`) and the kernel tests as `s mod 16 = 1` (`opensPage`). The sequences that open a page take
  consecutive entries of the free list: sequence `i` takes entry number "how many sequences before `i` open a
  page" (`exclSum`, an inclusive running sum less the sequence's own count). Its slot is sixteen times that
  free-list entry; a sequence that opens no page takes the slot after its last one.

  `refOut` is the reference's result and `kerOut` the kernel's, both as functions of the three argument arrays,
  index by index, over 32-bit words.
-/
import Idealize.ShloMosaic.PureOps

noncomputable section

namespace Cert.PageSlot

open Idealize.ShloMosaic

/-- The flat batch of 16 777 216 sequences, the same batch as one column, and the scalar shape. -/
abbrev Flat : Shape := ⟨1, ![16777216]⟩
abbrev Col : Shape := ⟨2, ![16777216, 1]⟩
abbrev Scal : Shape := ⟨0, ![]⟩

theorem bFlatCol : Flat.BroadcastsInDim Col (![0] : Fin 1 → Fin Col.rank) := by decide
theorem windows : Flat.ReduceWindows (![16777216] : Fin 1 → Nat) ![1] ![16777215] ![0] Flat := by decide
theorem colToFlat : Col.ReducesTo [1] Flat := by decide
theorem scalPos : 0 < Scal.numel := by decide
theorem gatherWF : GatherDims.WF Flat Col Flat [] [0] [] [0] [] 1 ![1] := by decide

/-- `x[idx]` of a flat array at a column of start indices. -/
def gatherRec : GatherDims Flat Col Flat where
  offsetDims := []
  collapsedSliceDims := [0]
  operandBatchingDims := []
  startIndicesBatchingDims := []
  startIndexMap := [0]
  indexVectorDim := 1
  sliceSizes := ![1]
  wf := gatherWF

/-! ## One word -/

/-- The sign of a word read as a two's-complement integer: -1, 0 or 1. -/
def sgn (x : BitVec 32) : BitVec 32 := if x = 0 then 0 else if x.msb then -1 else 1

/-- The floor of `x / 16`: the quotient rounded toward zero, less one where `x` is negative and 16 does not
    divide it. -/
def floorDiv16 (x : BitVec 32) : BitVec 32 :=
  Scalar.select (IntOp.andi (IntOp.cmpi .ne (sgn x) (sgn 16#32)) (IntOp.cmpi .ne (IntOp.remsi .host x 16#32) 0#32))
    (IntOp.subi (IntOp.divsi .host x 16#32) 1#32) (IntOp.divsi .host x 16#32)

/-- Pages needed for `s` tokens less pages needed for `s - 1`, each as `(n + 16 - 1) // 16` on 32-bit words. -/
def newPages (s : BitVec 32) : BitVec 32 :=
  IntOp.subi (floorDiv16 (IntOp.subi (IntOp.addi s 16#32) 1#32))
    (floorDiv16 (IntOp.subi (IntOp.addi (IntOp.subi s 1#32) 16#32) 1#32))

/-- The length has just passed a multiple of 16: its low four bits are 0001. -/
def opensPage (s : BitVec 32) : BitVec 1 := IntOp.cmpi .eq (IntOp.andi s 15#32) 1#32

/-- A negative index counts from the end of the free list. -/
def wrapIdx (k : BitVec 32) : BitVec 32 := Scalar.select (IntOp.cmpi .slt k 0#32) (IntOp.addi k 16777216#32) k

/-! ## The batch -/

/-- The running sum of `np` up to and including `j`, less `np j`: the sum over the sequences before `j`. -/
def exclSum (np : IVec Flat 32) : IVec Flat 32 := fun j =>
  IntOp.subi (Host.reduceWindow IntOp.addi ![16777216] ![1] ![16777215] ![0] np (fun _ : Scal.Idx => 0#32) windows scalPos j) (np j)

/-- The start indices as a column, negative ones wrapped. -/
def idxCol (idx : IVec Flat 32) : IVec Col 32 := broadcastInDim Col ![0] bFlatCol (fun j => wrapIdx (idx j))

/-- The free list read at the wrapped indices (an index outside the list reads its nearest end). -/
def lookup (fp idx : IVec Flat 32) : IVec Flat 32 := Host.gather gatherRec fp (idxCol idx)

/-- The wrapped index lies inside the free list. -/
def inRange (idx : IVec Flat 32) : IVec Flat 1 :=
  Host.reduce IntOp.andi (fun q : Col.Idx => IntOp.andi (IntOp.cmpi .sge (idxCol idx q) 0#32) (IntOp.cmpi .sle (idxCol idx q) 16777215#32))
    (fun _ : Scal.Idx => 1#1) colToFlat scalPos

/-- The reference: the slot after the last one where no page is opened, else sixteen times the free-list entry. -/
def refOut (s ll fp : IVec Flat 32) : IVec Flat 32 := fun i =>
  Scalar.select (IntOp.cmpi .eq (newPages (s i)) 0#32) (IntOp.addi (ll i) 1#32)
    (IntOp.muli (lookup fp (exclSum fun k => newPages (s k)) i) 16#32)

/-- The kernel: the same choice by the low-bits test, the free list read with a fill word outside its range. -/
def kerOut (s ll fp : IVec Flat 32) : IVec Flat 32 := fun i =>
  Scalar.select (opensPage (s i))
    (IntOp.muli (Scalar.select (inRange (exclSum fun k => (opensPage (s k)).setWidth 32) i)
      (lookup fp (exclSum fun k => (opensPage (s k)).setWidth 32) i) 2147483648#32) 16#32)
    (IntOp.addi (ll i) 1#32)

end Cert.PageSlot

end
-- ==== Proof.PreDecode.lean ====
/-
  The precondition read at an index: every sequence's page count, as the reference computes it, is 0 or 1.
-/
import proofs.«401829_j32212254720220_2_alg».proof.Proof.Spec
import proofs.«401829_j32212254720220_2_alg».proof.Defs
import proofs.«401829_j32212254720220_2_alg».proof.Proof.Gen.Pre_any_inputs
import Idealize.ShloMosaic.Lib.ReduceAll

namespace Cert.PageSlot

open Idealize.ShloMosaic

/-- The scalar shape has no axis, so it has exactly one index. -/
instance scalIdxSubsingleton : Subsingleton Scal.Idx := ⟨fun _ _ => funext fun d => d.elim0⟩

/-- The printed precondition of the three argument arrays, all ones, says of each length `s i` that its page count is 0 or 1. -/
theorem newPages_of_pre (s ll fp : IVec Flat 32)
    (h : Cert.Pre_any_inputs.fn (F := Ideal) s ll fp = fun _ => 1#1) (i : Flat.Idx) :
    newPages (s i) = 0#32 ∨ newPages (s i) = 1#32 := by
  -- The precondition's one result word, read at the one index of the scalar shape, is 1.
  have h0 := congrFun h (fun a => a.elim0)
  dsimp only [Cert.Pre_any_inputs.fn, Cert.Pre_any_inputs.fn_part1, Cert.Pre_any_inputs.fn_part2] at h0
  -- That word is the conjunction over the whole batch of "the count is 0 or the count is 1";
  -- a conjunction that is 1 has a 1 at every index, in particular at i.
  have hi := Host.reduce_andi_all (t := Scal) _ _ _ _ _ h0 i
  -- The batch operations act index by index, and at i they spell the two floor divisions of
  -- s i + 16 - 1 and s i - 1 + 16 - 1 and their difference exactly as the page count does.
  have hi' : IntOp.ori (IntOp.cmpi .eq (newPages (s i)) 0#32) (IntOp.cmpi .eq (newPages (s i)) 1#32) = 1#1 := hi
  -- A disjunction of two one-bit words that is 1 has a 1 on one side; an equality test that is 1 is an equality.
  rcases IntOp.ori_eq_one.1 hi' with h1 | h1
  · exact Or.inl (IntOp.cmpi_eq.1 h1)
  · exact Or.inr (IntOp.cmpi_eq.1 h1)

end Cert.PageSlot
-- ==== Proof.PageCount.lean ====
/-
  One word: where the reference's page count is 0 or 1 it is the kernel's low-bits test.

  Write `x` for a 32-bit word read as a two's-complement integer, `-2^31 ≤ x < 2^31`. The road:
  * `floorDiv16 y` is `⌊y / 16⌋` for every word `y`: the quotient rounded toward zero is `⌊y/16⌋` when `y ≥ 0` or
    `16 ∣ y` and `⌊y/16⌋ + 1` otherwise, the remainder of the dividend's sign is `y mod 16` resp. `y mod 16 - 16`,
    and the correction by one is applied exactly when `y ≤ 0` and the remainder is not zero;
  * the two arguments of `newPages s` are the wrapping sums `s + 15` and `s + 14`; both floors are at most `2^27` in
    size, so their difference does not wrap;
  * with `n` the word `s` read unsigned, `s &&& 15` is `n mod 16`, and the two wrapped sums are explicit in `n`;
    the rest is linear arithmetic with division by 16.
-/
import proofs.«401829_j32212254720220_2_alg».proof.Proof.Spec

namespace Cert.PageSlot

open Idealize.ShloMosaic

/-! ## Division by sixteen is never at a corner -/

/-- The sign of sixteen is one. -/
private theorem sgn_16 : sgn 16#32 = 1#32 := by decide

/-- Sixteen is neither zero nor minus one, so no dividend meets a division corner with it. -/
private theorem not_corner (y : BitVec 32) : ¬ IntOp.SDivCorner y 16#32 := by
  unfold IntOp.SDivCorner
  rintro (h | ⟨_, h⟩)
  · exact absurd h (by decide)
  · exact absurd h (by decide)

private theorem divsi_16 (y : BitVec 32) : IntOp.divsi .host y 16#32 = y.sdiv 16#32 := by
  unfold IntOp.divsi; rw [if_neg (not_corner y)]

private theorem remsi_16 (y : BitVec 32) : IntOp.remsi .host y 16#32 = y.srem 16#32 := by
  unfold IntOp.remsi; rw [if_neg (not_corner y)]

private theorem toInt_16 : (16#32 : BitVec 32).toInt = 16 := by decide

/-- The quotient toward zero against the floor: they differ by one exactly for a negative dividend that sixteen
    does not divide. -/
private theorem toInt_sdiv_16 (y : BitVec 32) :
    (y.sdiv 16#32).toInt = y.toInt / 16 + if 0 ≤ y.toInt ∨ (16:Int) ∣ y.toInt then 0 else 1 := by
  rw [BitVec.toInt_sdiv_of_ne_or_ne y 16#32 (Or.inr (by decide)), toInt_16, Int.tdiv_eq_ediv]
  rfl

/-- The remainder of the dividend's sign against the non-negative residue: sixteen less in the same case. -/
private theorem toInt_srem_16 (y : BitVec 32) :
    (y.srem 16#32).toInt = y.toInt % 16 - if 0 ≤ y.toInt ∨ (16:Int) ∣ y.toInt then 0 else 16 := by
  rw [BitVec.toInt_srem, toInt_16, Int.tmod_eq_emod]
  by_cases hc : (0 ≤ y.toInt ∨ (16:Int) ∣ y.toInt) <;> simp [hc]

/-- A difference of two words that fits in 32 signed bits does not wrap. -/
private theorem toInt_sub_of_bounds (a b : BitVec 32) (h1 : -2147483648 ≤ a.toInt - b.toInt)
    (h2 : a.toInt - b.toInt < 2147483648) : (a - b).toInt = a.toInt - b.toInt := by
  have ha := BitVec.toInt_eq_toNat_cond a
  have hb := BitVec.toInt_eq_toNat_cond b
  have hab := BitVec.toInt_eq_toNat_cond (a - b)
  rw [BitVec.toNat_sub] at hab
  have := a.isLt
  have := b.isLt
  omega

/-- The conjunction of two "not equal" bits is set exactly when both inequalities hold. -/
private theorem andi_ne_ne (a b c d : BitVec 32) :
    IntOp.andi (IntOp.cmpi .ne a b) (IntOp.cmpi .ne c d) = 1#1 ↔ (a ≠ b ∧ c ≠ d) := by
  unfold IntOp.andi IntOp.cmpi
  by_cases h1 : a = b
  · simp [h1]
  · by_cases h2 : c = d
    · simp [h2]
    · have e1 : (a != b) = true := bne_iff_ne.mpr h1
      have e2 : (c != d) = true := bne_iff_ne.mpr h2
      simp [e1, e2, h1, h2]

/-- The sign word is one exactly for a positive integer. -/
private theorem sgn_eq_one_iff (y : BitVec 32) : sgn y = 1#32 ↔ 0 < y.toInt := by
  unfold sgn
  by_cases h0 : y = 0
  · subst h0; decide
  · have hne : y.toInt ≠ 0 := fun h => h0 (BitVec.eq_of_toInt_eq (by rw [h]; rfl))
    by_cases hm : y.msb = true
    · have : y.toInt < 0 := by rw [BitVec.msb_eq_toInt] at hm; simpa using hm
      rw [if_neg h0, if_pos hm]
      constructor
      · intro h; exact absurd h (by decide)
      · intro h; omega
    · have : ¬ y.toInt < 0 := by rw [BitVec.msb_eq_toInt] at hm; simpa using hm
      rw [if_neg h0, if_neg hm]
      constructor
      · intro _; omega
      · intro _; rfl

/-! ## The floor -/

/-- `floorDiv16 y` is the floor of `y / 16`, for every 32-bit `y` read as a signed integer. The correction is
    applied when `y ≤ 0` and the remainder is not zero: for `y = 0` the remainder is zero, so that is exactly
    "`y < 0` and sixteen does not divide `y`", where the quotient toward zero is one above the floor. The floor is at
    least `-2^27`, so taking one off the quotient does not wrap. -/
private theorem floorDiv16_toInt (y : BitVec 32) : (floorDiv16 y).toInt = y.toInt / 16 := by
  have hq := toInt_sdiv_16 y
  have hr := toInt_srem_16 y
  have hlo := BitVec.le_toInt y
  have hhi := @BitVec.toInt_lt 32 y
  have hone : (1#32 : BitVec 32).toInt = 1 := by decide
  have hqm : (y.sdiv 16#32 - 1#32).toInt = (y.sdiv 16#32).toInt - 1 := by
    rw [toInt_sub_of_bounds _ _ (by rw [hone, hq]; split <;> omega) (by rw [hone, hq]; split <;> omega), hone]
  have hr0 : y.srem 16#32 = 0#32 ↔ (y.srem 16#32).toInt = 0 := by
    constructor
    · intro h; rw [h]; rfl
    · intro h; exact BitVec.eq_of_toInt_eq (by rw [h]; rfl)
  unfold floorDiv16
  rw [divsi_16, remsi_16, sgn_16]
  have hs := sgn_eq_one_iff y
  have hc := andi_ne_ne (sgn y) 1#32 (y.srem 16#32) 0#32
  unfold Scalar.select
  split
  · -- the corrected branch: y ≤ 0 and a non-zero remainder
    rename_i h
    have h' := hc.mp h
    show (y.sdiv 16#32 - 1#32).toInt = y.toInt / 16
    rw [hqm]
    have h1 : ¬ 0 < y.toInt := fun hp => h'.1 (hs.mpr hp)
    have h2 : (y.srem 16#32).toInt ≠ 0 := fun hz => h'.2 (hr0.mpr hz)
    split at hq <;> split at hr <;> omega
  · -- the plain branch: y > 0, or the remainder is zero
    rename_i h
    have h' : ¬ (sgn y ≠ 1#32 ∧ y.srem 16#32 ≠ 0#32) := fun hh => h (hc.mpr hh)
    by_cases hp : 0 < y.toInt
    · split at hq <;> omega
    · have h1 : sgn y ≠ 1#32 := fun he => hp (hs.mp he)
      have h2 : (y.srem 16#32).toInt = 0 := by
        apply hr0.mp
        apply Classical.byContradiction
        intro hne
        exact h' ⟨h1, hne⟩
      split at hq <;> split at hr <;> omega

/-! ## The count -/

/-- `s + 16 - 1` is the wrapping sum `s + 15`. -/
private theorem arg_a (s : BitVec 32) : IntOp.subi (IntOp.addi s 16#32) 1#32 = s + 15#32 := by
  unfold IntOp.subi IntOp.addi; bv_omega

/-- `(s - 1) + 16 - 1` is the wrapping sum `s + 14`. -/
private theorem arg_b (s : BitVec 32) :
    IntOp.subi (IntOp.addi (IntOp.subi s 1#32) 16#32) 1#32 = s + 14#32 := by
  unfold IntOp.subi IntOp.addi; bv_omega

/-- The count as an integer: the difference of the two floors, which are within `2^27` of zero, so the
    subtraction of words does not wrap. -/
private theorem newPages_toInt (s : BitVec 32) :
    (newPages s).toInt = (s + 15#32).toInt / 16 - (s + 14#32).toInt / 16 := by
  unfold newPages
  rw [arg_a, arg_b]
  show (floorDiv16 (s + 15#32) - floorDiv16 (s + 14#32)).toInt = _
  have ha := floorDiv16_toInt (s + 15#32)
  have hb := floorDiv16_toInt (s + 14#32)
  have := BitVec.le_toInt (s + 15#32)
  have := @BitVec.toInt_lt 32 (s + 15#32)
  have := BitVec.le_toInt (s + 14#32)
  have := @BitVec.toInt_lt 32 (s + 14#32)
  rw [toInt_sub_of_bounds _ _ (by omega) (by omega), ha, hb]

/-- For a 32-bit length `s` whose count `⌊(s+15)/16⌋ - ⌊(s+14)/16⌋` (wrapping arithmetic) is 0 or 1, the count is 1
    exactly when `s mod 16 = 1`. (The one length excluded is `2^31 - 15`, where `s + 15` wraps and `s + 14` does not.) -/
theorem newPages_eq_flag (s : BitVec 32) (h : newPages s = 0#32 ∨ newPages s = 1#32) :
    newPages s = (opensPage s).setWidth 32 := by
  -- With n the unsigned reading of s: the two wrapped sums read signed, and the low four bits, all in terms of n.
  have hn := newPages_toInt s
  have hA := BitVec.toInt_eq_toNat_cond (s + 15#32)
  have hB := BitVec.toInt_eq_toNat_cond (s + 14#32)
  rw [BitVec.toNat_add] at hA hB
  have h15 : (15#32 : BitVec 32).toNat = 15 := rfl
  have h14 : (14#32 : BitVec 32).toNat = 14 := rfl
  rw [h15] at hA
  rw [h14] at hB
  have hand : (s &&& 15#32).toNat = s.toNat % 16 := by
    rw [BitVec.toNat_and]; exact Nat.and_two_pow_sub_one_eq_mod s.toNat 4
  have hlt := s.isLt
  have z0 : (0#32 : BitVec 32).toInt = 0 := rfl
  have z1 : (1#32 : BitVec 32).toInt = 1 := by decide
  unfold opensPage IntOp.cmpi IntOp.andi
  by_cases hb : s &&& 15#32 = 1#32
  · -- n mod 16 = 1: the flag is one, and a count of zero is impossible
    have h1 : (s &&& 15#32).toNat = 1 := by rw [hb]; rfl
    have e : BitVec.setWidth 32 (BitVec.ofBool (s &&& 15#32 == 1#32)) = 1#32 := by
      rw [hb]; decide
    show newPages s = BitVec.setWidth 32 (BitVec.ofBool (s &&& 15#32 == 1#32))
    rw [e]
    rcases h with h | h
    · exfalso; rw [h, z0] at hn; omega
    · exact h
  · -- n mod 16 ≠ 1: the flag is zero, and a count of one is impossible
    have h1 : (s &&& 15#32).toNat ≠ 1 := fun hh => hb (BitVec.eq_of_toNat_eq hh)
    have e : BitVec.setWidth 32 (BitVec.ofBool (s &&& 15#32 == 1#32)) = 0#32 := by
      have : (s &&& 15#32 == 1#32) = false := by simpa using hb
      rw [this]; decide
    show newPages s = BitVec.setWidth 32 (BitVec.ofBool (s &&& 15#32 == 1#32))
    rw [e]
    rcases h with h | h
    · exact h
    · exfalso; rw [h, z1] at hn; omega

end Cert.PageSlot
-- ==== Proof.PrefixSum.lean ====
/-
  The batch: a running sum of zeros and ones stays inside the free list, and an index inside it passes the range test.
-/
import proofs.«401829_j32212254720220_2_alg».proof.Proof.Spec

namespace Cert.PageSlot

open Idealize.ShloMosaic

/-! ## Sums of zeros and ones -/

/-- A left fold of 32-bit addition over any list of words, each 0 or 1, adds at most the list's length to the
    accumulator: a wrapped sum is never more than the plain one. -/
private theorem foldl_addi_le {ι : Type} (g : ι → BitVec 32) (hg : ∀ n, (g n).toNat ≤ 1) :
    ∀ (l : List ι) (acc : BitVec 32),
      (l.foldl (fun r n => IntOp.addi r (g n)) acc).toNat ≤ acc.toNat + l.length
  | [], acc => by simp
  | x :: l, acc => by
      rw [List.foldl_cons]
      refine (foldl_addi_le g hg l _).trans ?_
      have h1 : (IntOp.addi acc (g x)).toNat ≤ acc.toNat + (g x).toNat := by
        show (acc + g x).toNat ≤ _
        rw [BitVec.toNat_add]; exact Nat.mod_le _ _
      have h2 := hg x
      simp only [List.length_cons]; omega

/-- The positions below `k + 1` in order are `k` positions followed by the position `k`. -/
private theorem finRange_split_last (m k : Nat) (hm : m = k + 1) :
    ∃ (l : List (Fin m)) (x : Fin m), List.finRange m = l ++ [x] ∧ l.length = k ∧ x.val = k := by
  subst hm
  exact ⟨_, _, List.finRange_succ_last, by rw [List.length_map, List.length_finRange], rfl⟩

/-- The window has 16 777 216 positions: one more than 16 777 215. -/
private theorem numel_window : (⟨1, ![16777216]⟩ : Shape).numel = 16777215 + 1 := by
  simp [Shape.numel]

/-- A running sum from 0 over a list that ends in `x`, less the term at `x`, is the running sum over the rest
    (`a + b - b = a` on words), so it is at most the number of terms before `x`. -/
private theorem sub_last_le {ι : Type} (g : ι → BitVec 32) (hg : ∀ n, (g n).toNat ≤ 1) (l : List ι) (x : ι)
    (b : BitVec 32) (hb : g x = b) :
    (IntOp.subi ((l ++ [x]).foldl (fun r n => IntOp.addi r (g n)) 0#32) b).toNat ≤ l.length := by
  rw [List.foldl_append, List.foldl_cons, List.foldl_nil, hb]
  show (List.foldl (fun r n => IntOp.addi r (g n)) 0#32 l + b - b).toNat ≤ l.length
  rw [BitVec.add_sub_cancel]
  simpa using foldl_addi_le g hg l 0#32

/-- The sum of the counts before `j`, each count 0 or 1, is a number below the batch size: no 32-bit sum wraps.

    The window at `j` has 16 777 216 positions; position `n` reads the count at `j + n - 16777215` where that is
    an index of the batch and 0 elsewhere, so every term is 0 or 1, and the last position, `n = 16777215`, reads
    the count at `j` itself. Taking that count off again leaves the sum over the first 16 777 215 positions,
    which is at most 16 777 215. -/
theorem exclSum_lt (np : IVec Flat 32) (h : ∀ k, (np k).toNat ≤ 1) (j : Flat.Idx) :
    (exclSum np j).toNat < 16777216 := by
  unfold exclSum Host.reduceWindow
  obtain ⟨l, x, hl, hlen, hx⟩ := finRange_split_last _ _ numel_window
  -- the last position of the window, as a coordinate of the one-axis window shape
  have hx0 : ((⟨1, ![16777216]⟩ : Shape).rowMajor.symm x 0).val = 16777215 := by
    have e := Shape.rowMajor_val_one ((⟨1, ![16777216]⟩ : Shape).rowMajor.symm x)
    rw [Equiv.apply_symm_apply] at e
    omega
  have hj : (j 0).val < 16777216 := (j 0).isLt
  dsimp only
  rw [hl]
  refine Nat.lt_of_le_of_lt (sub_last_le _ ?_ l x (np j) ?_) (by omega)
  · -- every term is a count or the padding's 0
    intro n
    split
    · exact h _
    · simp
  · -- the last term: `j * 1 + 16777215 - 16777215 = j`, an index of the batch
    split
    · refine congrArg np (funext fun a => ?_)
      obtain rfl : a = 0 := Subsingleton.elim _ _
      apply Fin.ext
      show (j 0).val * 1 + ((⟨1, ![16777216]⟩ : Shape).rowMajor.symm x 0).val - 16777215 = (j 0).val
      omega
    · next hn =>
      exfalso
      apply hn
      intro a
      obtain rfl : a = 0 := Subsingleton.elim _ _
      show 16777215 ≤ (j 0).val * 1 + ((⟨1, ![16777216]⟩ : Shape).rowMajor.symm x 0).val ∧
        (j 0).val * 1 + ((⟨1, ![16777216]⟩ : Shape).rowMajor.symm x 0).val - 16777215 < 16777216
      omega

/-! ## The range test -/

/-- A word whose value is below 16 777 216 is non-negative as a signed word (its value is below `2^31`), so it is
    not wrapped, and it passes both `0 ≤ k` and `k ≤ 16777215`. -/
private theorem word_inRange (k : BitVec 32) (hk : k.toNat < 16777216) :
    IntOp.andi (IntOp.cmpi .sge (wrapIdx k) 0#32) (IntOp.cmpi .sle (wrapIdx k) 16777215#32) = 1#1 := by
  have hi : k.toInt = (k.toNat : Int) := BitVec.toInt_eq_toNat_of_lt (by omega)
  have h0 : k.slt 0#32 = false := by
    simp only [BitVec.slt, hi, BitVec.toInt_zero]
    simp
  have hw : wrapIdx k = k := by
    simp [wrapIdx, IntOp.cmpi, h0, Scalar.select]
  rw [hw]
  have h1 : (0#32).sle k = true := by
    simp only [BitVec.sle, hi, BitVec.toInt_zero]
    simp
  have h2 : k.sle 16777215#32 = true := by
    simp only [BitVec.sle, hi]
    simp
    omega
  simp [IntOp.cmpi, IntOp.andi, h1, h2]

/-- A left fold of `and` from 1 over any list of one-bit words that are all 1 is 1. -/
private theorem foldl_andi_one {ι : Type} (f : ι → BitVec 1) (hf : ∀ n, f n = 1#1) :
    ∀ (l : List ι), l.foldl (fun r n => IntOp.andi r (f n)) 1#1 = 1#1
  | [] => rfl
  | a :: l => by
      have e : IntOp.andi 1#1 1#1 = 1#1 := by decide
      rw [List.foldl_cons, hf a, e]
      exact foldl_andi_one f hf l

/-- An index that is already a number below the batch size is not wrapped and passes both comparisons.

    Every entry of the column of wrapped indices is `wrapIdx` of some entry of `idx`, so the test is 1 at every
    column index, and the `and` over whichever of them reduce to `i` is 1. -/
theorem inRange_of_lt (idx : IVec Flat 32) (h : ∀ j, (idx j).toNat < 16777216) (i : Flat.Idx) :
    inRange idx i = 1#1 := by
  unfold inRange Host.reduce
  exact foldl_andi_one _ (fun n => word_inRange _ (h _)) _

end Cert.PageSlot
-- ==== Proof.Bridge.lean ====
/-
  The two results are one function wherever every page count is 0 or 1.
-/
import proofs.«401829_j32212254720220_2_alg».proof.Proof.Spec
import proofs.«401829_j32212254720220_2_alg».proof.Proof.PageCount
import proofs.«401829_j32212254720220_2_alg».proof.Proof.PrefixSum

namespace Cert.PageSlot

open Idealize.ShloMosaic

/-- A one-bit word widened to 32 bits is the number 0 or 1. -/
theorem toNat_setWidth_bit_le (b : BitVec 1) : (b.setWidth 32).toNat ≤ 1 := by
  rw [BitVec.toNat_setWidth]
  have hb : b.toNat < 2 := b.isLt
  have hm : b.toNat % 2 ^ 32 ≤ b.toNat := Nat.mod_le _ _
  omega

/-- The closed comparisons met below: 1 is not 0 and 0 is 0, as 32-bit words. -/
theorem cmpi_eq_one_zero : IntOp.cmpi .eq ((1#1).setWidth 32) 0#32 = 0#1 := by decide
theorem cmpi_eq_zero_zero : IntOp.cmpi .eq ((0#1).setWidth 32) 0#32 = 1#1 := by decide

theorem refOut_eq_kerOut (s ll fp : IVec Flat 32) (h : ∀ i, newPages (s i) = 0#32 ∨ newPages (s i) = 1#32) :
    refOut s ll fp = kerOut s ll fp := by
  -- Under the hypothesis the reference's array of page counts is the kernel's array of widened flags,
  -- so both sides read the free list at the same running sum.
  have hnp : (fun k => newPages (s k)) = fun k => (opensPage (s k)).setWidth 32 :=
    funext fun k => newPages_eq_flag (s k) (h k)
  -- Each flag is 0 or 1, so the running sum stays below the batch size and passes the range test:
  -- the kernel's fill word is never chosen.
  have hin : ∀ i, inRange (exclSum fun k => (opensPage (s k)).setWidth 32) i = 1#1 :=
    inRange_of_lt _ (exclSum_lt _ fun k => toNat_setWidth_bit_le (opensPage (s k)))
  funext i
  unfold refOut kerOut
  rw [hnp, hin i, newPages_eq_flag (s i) (h i)]
  -- The flag of sequence i is one bit: 0 or 1.
  rcases BitVec.eq_zero_or_eq_one (opensPage (s i)) with h0 | h1
  · -- No page opened: the count is 0, the reference's comparison holds, both take the slot after the last one.
    rw [h0, cmpi_eq_zero_zero]
    rfl
  · -- A page opened: the count is 1, the reference's comparison fails, both take sixteen times the free-list entry.
    rw [h1, cmpi_eq_one_zero]
    rfl

end Cert.PageSlot
-- ==== Proof.RefRun.lean ====
/-
  The reference program's run, read back: every weakly fair execution of its @main terminates with the result
  array at the slot assignment `Cert.PageSlot.refOut` of the three argument arrays, the arguments unchanged.
-/
import proofs.«401829_j32212254720220_2_alg».proof.Proof.Gen.ReferenceIdeal
import proofs.«401829_j32212254720220_2_alg».proof.Proof.Spec
import Idealize.ShloMosaic.Lib.StableHlo.Run
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 75 operations in order, the calls unfolded at their sites over each call's own buffers: seven of @main,
    the seventeen of the first floor division (sixteen of its own and the select of the `where` it calls), ten of
    @main, the seventeen of the second floor division, the difference of the two, the three of the running sum (the
    zero, its rank-zero broadcast, the window reduction), nineteen of @main, and the select of the last `where`. -/
abbrev ops : List (HloOp τ sig (Elt F)) :=
  [ nullary main_c (constantI S_ 32 16#32),
    unary main_c main_v0 (broadcastInDim S16777216 ![] bcast_S_S16777216),
    binary main_arg0 main_v0 main_v1 addi,
    nullary main_c_0 (constantI S_ 32 1#32),
    unary main_c_0 main_v2 (broadcastInDim S16777216 ![] bcast_S_S16777216),
    binary main_v1 main_v2 main_v3 subi,
    nullary main_c_1 (constantI S_ 32 16#32),
    TRef.unary (.of main_c_1) main_call0.v0 id,
    TRef.unary main_call0.v0 main_call0.v1 (broadcastInDim S16777216 ![] bcast_S_S16777216),
    TRef.binary (.of main_v3) main_call0.v1 main_call0.v2 Host.divsi,
    TRef.unary (.of main_v3) main_call0.v3 signi,
    TRef.unary main_call0.v0 main_call0.v4 signi,
    TRef.unary main_call0.v4 main_call0.v5 (broadcastInDim S16777216 ![] bcast_S_S16777216),
    TRef.binary main_call0.v3 main_call0.v5 main_call0.v6 (cmpi .ne),
    TRef.unary main_call0.v0 main_call0.v7 (broadcastInDim S16777216 ![] bcast_S_S16777216),
    TRef.binary (.of main_v3) main_call0.v7 main_call0.v8 Host.remsi,
    TRef.nullary main_call0.c (constantI S_ 32 0#32),
    TRef.unary main_call0.c main_call0.v9 (broadcastInDim S16777216 ![] bcast_S_S16777216),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S16777216 ![] bcast_S_S16777216),
    TRef.binary main_call0.v2 main_call0.v12 main_call0.v13 subi,
    TRef.ternary main_call0.v11 main_call0.v13 main_call0.v2 main_call0.call0.v0 select,
    nullary main_c_2 (constantI S_ 32 1#32),
    unary main_c_2 main_v5 (broadcastInDim S16777216 ![] bcast_S_S16777216),
    binary main_arg0 main_v5 main_v6 subi,
    nullary main_c_3 (constantI S_ 32 16#32),
    unary main_c_3 main_v7 (broadcastInDim S16777216 ![] bcast_S_S16777216),
    binary main_v6 main_v7 main_v8 addi,
    nullary main_c_4 (constantI S_ 32 1#32),
    unary main_c_4 main_v9 (broadcastInDim S16777216 ![] bcast_S_S16777216),
    binary main_v8 main_v9 main_v10 subi,
    nullary main_c_5 (constantI S_ 32 16#32),
    TRef.unary (.of main_c_5) main_call1.v0 id,
    TRef.unary main_call1.v0 main_call1.v1 (broadcastInDim S16777216 ![] bcast_S_S16777216),
    TRef.binary (.of main_v10) main_call1.v1 main_call1.v2 Host.divsi,
    TRef.unary (.of main_v10) main_call1.v3 signi,
    TRef.unary main_call1.v0 main_call1.v4 signi,
    TRef.unary main_call1.v4 main_call1.v5 (broadcastInDim S16777216 ![] bcast_S_S16777216),
    TRef.binary main_call1.v3 main_call1.v5 main_call1.v6 (cmpi .ne),
    TRef.unary main_call1.v0 main_call1.v7 (broadcastInDim S16777216 ![] bcast_S_S16777216),
    TRef.binary (.of main_v10) main_call1.v7 main_call1.v8 Host.remsi,
    TRef.nullary main_call1.c (constantI S_ 32 0#32),
    TRef.unary main_call1.c main_call1.v9 (broadcastInDim S16777216 ![] bcast_S_S16777216),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S16777216 ![] bcast_S_S16777216),
    TRef.binary main_call1.v2 main_call1.v12 main_call1.v13 subi,
    TRef.ternary main_call1.v11 main_call1.v13 main_call1.v2 main_call1.call0.v0 select,
    binary main_v4 main_v11 main_v12 subi,
    TRef.nullary main_call2.call0.c (constantI S_ 32 0#32),
    TRef.unary main_call2.call0.c main_call2.call0.v0 (broadcastInDim S_ ![] bcast_S_S_),
    TRef.binary (.of main_v12) main_call2.call0.v0 main_call2.call0.v1 (fun x v => Host.reduceWindow IntOp.addi ![16777216] ![1] ![16777215] ![0] x v reduceWindows_S16777216_S16777216_w16777216s1p16777215_0 h_S_),
    binary main_v13 main_v12 main_v14 subi,
    nullary main_c_6 (constantI S_ 32 0#32),
    unary main_c_6 main_v15 (broadcastInDim S16777216 ![] bcast_S_S16777216),
    binary main_v14 main_v15 main_v16 (cmpi .slt),
    nullary main_c_7 (constantI S_ 32 16777216#32),
    unary main_c_7 main_v17 (broadcastInDim S16777216 ![] bcast_S_S16777216),
    binary main_v14 main_v17 main_v18 addi,
    ternary main_v16 main_v18 main_v14 main_v19 select,
    unary main_v19 main_v20 (broadcastInDim S16777216x1 ![0] bcast_S16777216_S16777216x1_0),
    binary main_arg2 main_v20 main_v21 (fun x i => Host.gather gather_S16777216_S16777216x1_S16777216_n_0_n_n_0_1_1 x i),
    nullary main_c_8 (constantI S_ 32 0#32),
    unary main_c_8 main_v22 (broadcastInDim S16777216 ![] bcast_S_S16777216),
    binary main_v12 main_v22 main_v23 (cmpi .eq),
    nullary main_c_9 (constantI S_ 32 1#32),
    unary main_c_9 main_v24 (broadcastInDim S16777216 ![] bcast_S_S16777216),
    binary main_arg1 main_v24 main_v25 addi,
    nullary main_c_10 (constantI S_ 32 16#32),
    unary main_c_10 main_v26 (broadcastInDim S16777216 ![] bcast_S_S16777216),
    binary main_v21 main_v26 main_v27 muli,
    TRef.ternary (.of main_v23) (.of main_v25) (.of main_v27) main_call3.v0 select ]

-- seventy-five steps peeled against the list: one unfolding per step, each under the one before
set_option maxRecDepth 8192 in
set_option maxHeartbeats 1600000 in
/-- @main is that straight line: with the functions' bodies unfolded at their calls and sequencing re-associated,
    both sides are the same chain of operation steps, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    binary_bufs_sub ..,
    nullary_bufs_sub .., unary_bufs_sub .., binary_bufs_sub ..,
    binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub ..⟩

/-! ## The composed term, piece by piece

What the operations compose to at the result buffer, as a function of the three argument arrays, written through
its repeated pieces; each piece is then its index-by-index counterpart of the slot arithmetic. Every operation is
pointwise, the constants are the same word at every index, and the two operations that are not pointwise — the
window sum and the gather — stand on both sides with equal arguments. -/

/-- The word `b` at every index of the batch: a rank-zero constant broadcast. -/
def splat (b : BitVec 32) : IVec S16777216 32 := broadcastInDim S16777216 ![] bcast_S_S16777216 (constantI S_ 32 b)

theorem splat_apply (b : BitVec 32) (i : S16777216.Idx) : splat b i = b := rfl

/-- The floor division of a batch `x` by a rank-zero divisor `d`, as the callee's operations compose: the quotient
    rounded toward zero, less one where the signs of `x` and `d` differ and the remainder is not zero. -/
def floorDivTerm (x : IVec S16777216 32) (d : IVec S_ 32) : IVec S16777216 32 :=
  select
    (andi
      (cmpi .ne (signi x) (broadcastInDim S16777216 ![] bcast_S_S16777216 (signi (id d))))
      (cmpi .ne (Host.remsi x (broadcastInDim S16777216 ![] bcast_S_S16777216 (id d))) (splat 0#32)))
    (subi (Host.divsi x (broadcastInDim S16777216 ![] bcast_S_S16777216 (id d))) (splat 1#32))
    (Host.divsi x (broadcastInDim S16777216 ![] bcast_S_S16777216 (id d)))

/-- By sixteen it is `floorDiv16` at every index: each operation is pointwise and the divisor, its sign, the zero
    and the one are the same words at every index. -/
theorem floorDivTerm_eq (x : IVec S16777216 32) :
    floorDivTerm x (constantI S_ 32 16#32) = fun i => Cert.PageSlot.floorDiv16 (x i) := by
  funext i; rfl

/-- Pages for `s` tokens less pages for `s - 1`: the difference of the two floor divisions. -/
def newPagesTerm (s : IVec S16777216 32) : IVec S16777216 32 :=
  subi (floorDivTerm (subi (addi s (splat 16#32)) (splat 1#32)) (constantI S_ 32 16#32))
    (floorDivTerm (subi (addi (subi s (splat 1#32)) (splat 16#32)) (splat 1#32)) (constantI S_ 32 16#32))

theorem newPagesTerm_eq (s : IVec S16777216 32) : newPagesTerm s = fun i => Cert.PageSlot.newPages (s i) := by
  unfold newPagesTerm
  rw [floorDivTerm_eq, floorDivTerm_eq]
  rfl

/-- The running sum of the counts less each sequence's own: the window sum over everything up to an index,
    from zero, minus the count there. -/
def startTerm (np : IVec S16777216 32) : IVec S16777216 32 :=
  subi (Host.reduceWindow IntOp.addi ![16777216] ![1] ![16777215] ![0] np (broadcastInDim S_ ![] bcast_S_S_ (constantI S_ 32 0#32))
    reduceWindows_S16777216_S16777216_w16777216s1p16777215_0 h_S_) np

attribute [local irreducible] Host.reduceWindow in
theorem startTerm_eq (np : IVec S16777216 32) : startTerm np = Cert.PageSlot.exclSum np := rfl

/-- A negative start index counted from the end of the list. -/
def wrapTerm (st : IVec S16777216 32) : IVec S16777216 32 :=
  select (cmpi .slt st (splat 0#32)) (addi st (splat 16777216#32)) st

theorem wrapTerm_eq (st : IVec S16777216 32) : wrapTerm st = fun j => Cert.PageSlot.wrapIdx (st j) := by
  funext j; rfl

/-- The free list read at the wrapped start indices, as one column. -/
def lookupTerm (fp st : IVec S16777216 32) : IVec S16777216 32 :=
  Host.gather gather_S16777216_S16777216x1_S16777216_n_0_n_n_0_1_1 fp
    (broadcastInDim S16777216x1 ![0] bcast_S16777216_S16777216x1_0 (wrapTerm st))

attribute [local irreducible] Host.gather in
theorem lookupTerm_eq (fp st : IVec S16777216 32) : lookupTerm fp st = Cert.PageSlot.lookup fp st := by
  unfold lookupTerm
  rw [wrapTerm_eq]
  rfl

/-- The result: the slot after the last one where no page is opened, else sixteen times the free-list entry. -/
def outTerm (s ll fp : IVec S16777216 32) : IVec S16777216 32 :=
  select (cmpi .eq (newPagesTerm s) (splat 0#32)) (addi ll (splat 1#32))
    (muli (lookupTerm fp (startTerm (newPagesTerm s))) (splat 16#32))

theorem outTerm_eq (s ll fp : IVec S16777216 32) : outTerm s ll fp = Cert.PageSlot.refOut s ll fp := by
  unfold outTerm
  rw [newPagesTerm_eq, startTerm_eq, lookupTerm_eq]
  rfl

set_option maxHeartbeats 1600000 in
/-- The fold of the operations at the result buffer is that term of the three argument arrays: each operation's
    result read at its own buffer, every other buffer left as it was; the typed references of the calls carry
    their values unchanged. -/
theorem after_out (V : Valuation τ sig (Elt F)) :
    after ops V (main_v28 : DevRef τ sig)
      = outTerm (V (main_arg0 : DevRef τ sig)) (V (main_arg1 : DevRef τ sig)) (V (main_arg2 : DevRef τ sig)) := by
  after_results_simp
  simp only [TRef.ofBuf, TRef.toBuf, cast_eq]
  unfold outTerm lookupTerm startTerm newPagesTerm wrapTerm floorDivTerm splat
  rfl

/-- No operation writes an argument array. -/
theorem after_arg0 (V : Valuation τ sig (Elt F)) : after ops V (main_arg0 : DevRef τ sig) = V (main_arg0 : DevRef τ sig) := by
  after_results_simp
theorem after_arg1 (V : Valuation τ sig (Elt F)) : after ops V (main_arg1 : DevRef τ sig) = V (main_arg1 : DevRef τ sig) := by
  after_results_simp
theorem after_arg2 (V : Valuation τ sig (Elt F)) : after ops V (main_arg2 : DevRef τ sig) = V (main_arg2 : DevRef τ sig) := by
  after_results_simp

/-- On every device, from any memory with zero counters: every weakly fair execution of @main terminates with the
    result array at the slot assignment of the three argument arrays and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
        = Cert.PageSlot.refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v28).trans ((after_out (launchContents m c)).trans (outTerm_eq _ _ _)),
        (h c main_arg0).trans (after_arg0 (launchContents m c)),
        (h c main_arg1).trans (after_arg1 (launchContents m c)),
        (h c main_arg2).trans (after_arg2 (launchContents m c))⟩)
    (run_seq scopedRefs_eq scopedSems_eq defs main (fun _ => ops) main_eq (fun _ => ops_sub) m ρ)

end Cert.ReferenceIdeal.HandRun

end
-- ==== Proof.KernelRun.lean ====
/-
  The kernel program's run, read back (first part: the pallas_call's output array).

  The call's body loads one 8192 × 128 block of each of three arrays — the lengths, the last slots and the
  free-list pages — and stores, element by element, sixteen times the page where the length's low four bits are
  0001 and the last slot plus one elsewhere. Its sixteen blocks are the sixteen row bands of the 131072 × 128
  arrays, so after the run the output array is that merge of the three whole arrays, index by index.
-/
import proofs.«401829_j32212254720220_2_alg».proof.Proof.Gen.KernelIdeal.Frame
import proofs.«401829_j32212254720220_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.HandValue

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The merge of three arrays of one shape, element by element. -/
def merged {S : Shape} (a0 a1 a2 : IVec S 32) : IVec S 32 := fun i =>
  Scalar.select (IntOp.cmpi .eq (IntOp.andi (a0 i) 15#32) 1#32) (IntOp.muli (a2 i) 16#32) (IntOp.addi (a1 i) 1#32)

/-- The body's one stored value is the merge of its three loaded blocks. -/
theorem pay_eq (x0 x1 x2 : Vec F S8192x128 .i32) : k0_pay1 x0 x1 x2 = merged (S := S8192x128) x0 x1 x2 := by
  unfold k0_pay1
  simp only [shapeCast_self]
  rfl

/-- The four windows move together: at point `t` each is at row band `t`, column band 0. -/
theorem idx_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) = t.val ∧ win0_3.index t (1 : Fin 2) = 0 :=
  (by decide +kernel : ∀ t : Fin grid0.N, _)

/-- The merge read at an index, from its three arrays read there. -/
theorem merged_at {S T : Shape} (A0 A1 A2 : IVec T 32) (x0 x1 x2 : IVec S 32) (y : S.Idx) (k : T.Idx)
    (h0 : x0 y = A0 k) (h1 : x1 y = A1 k) (h2 : x2 y = A2 k) : merged x0 x1 x2 y = merged A0 A1 A2 k := by
  unfold merged; rw [h0, h1, h2]

/-- What point `t` writes back is row band `t` of the merge of the three arrays as the call finds them. -/
theorem flushed_eq (c : Dev nD) (t : Fin cfg0.N) :
    (dats m 0 c).flushed 3 t = ((cfg0.win 3).blk t).view.read (Elt F) (merged (S := S131072x128) (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold out0_3
  rw [View.canon_unit_zero hz]
  simp only [View.ld_unit_zero (S := S8192x128) hz]
  rw [pay_eq]
  obtain ⟨e0, e1, e2, e3, e4, e5, e6, e7⟩ := idx_facts t
  funext j
  have h0 : ((cfg0.win 0).blk t).view.emb j = ((cfg0.win 3).blk t).view.emb j := by
    funext a; apply Fin.ext
    show ((win0_0.rect t).emb j a : Nat) = ((win0_3.rect t).emb j a : Nat)
    rw [Pipeline.Window.rect_emb_val, Pipeline.Window.rect_emb_val]
    match a with
    | ⟨0, _⟩ => exact (by rw [e0] : win0_0.index t (0 : Fin 2) * win0_0.size (0 : Fin 2) + (j 0).val = win0_3.index t (0 : Fin 2) * win0_3.size (0 : Fin 2) + (j 0).val)
    | ⟨1, _⟩ => exact (by rw [e1] : win0_0.index t (1 : Fin 2) * win0_0.size (1 : Fin 2) + (j 1).val = win0_3.index t (1 : Fin 2) * win0_3.size (1 : Fin 2) + (j 1).val)
  have h1 : ((cfg0.win 1).blk t).view.emb j = ((cfg0.win 3).blk t).view.emb j := by
    funext a; apply Fin.ext
    show ((win0_1.rect t).emb j a : Nat) = ((win0_3.rect t).emb j a : Nat)
    rw [Pipeline.Window.rect_emb_val, Pipeline.Window.rect_emb_val]
    match a with
    | ⟨0, _⟩ => exact (by rw [e2] : win0_1.index t (0 : Fin 2) * win0_1.size (0 : Fin 2) + (j 0).val = win0_3.index t (0 : Fin 2) * win0_3.size (0 : Fin 2) + (j 0).val)
    | ⟨1, _⟩ => exact (by rw [e3] : win0_1.index t (1 : Fin 2) * win0_1.size (1 : Fin 2) + (j 1).val = win0_3.index t (1 : Fin 2) * win0_3.size (1 : Fin 2) + (j 1).val)
  have h2 : ((cfg0.win 2).blk t).view.emb j = ((cfg0.win 3).blk t).view.emb j := by
    funext a; apply Fin.ext
    show ((win0_2.rect t).emb j a : Nat) = ((win0_3.rect t).emb j a : Nat)
    rw [Pipeline.Window.rect_emb_val, Pipeline.Window.rect_emb_val]
    match a with
    | ⟨0, _⟩ => exact (by rw [e4] : win0_2.index t (0 : Fin 2) * win0_2.size (0 : Fin 2) + (j 0).val = win0_3.index t (0 : Fin 2) * win0_3.size (0 : Fin 2) + (j 0).val)
    | ⟨1, _⟩ => exact (by rw [e5] : win0_2.index t (1 : Fin 2) * win0_2.size (1 : Fin 2) + (j 1).val = win0_3.index t (1 : Fin 2) * win0_3.size (1 : Fin 2) + (j 1).val)
  refine merged_at (V m c (Pipeline.arrRef spec0 0)) (V m c (Pipeline.arrRef spec0 1)) (V m c (Pipeline.arrRef spec0 2)) (iblk m c 0 t) (iblk m c 1 t) (iblk m c 2 t) j (((cfg0.win 3).blk t).view.emb j) ?_ ?_ ?_
  · unfold iblk; rw [View.read_apply, h0, cast_eq]
  · unfold iblk; rw [View.read_apply, h1, cast_eq]
  · unfold iblk; rw [View.read_apply, h2, cast_eq]

/-- An index of the output array lies in point `t`'s block exactly when its row is in band `t`. -/
theorem mem_blk (t : Fin cfg0.N) (i : S131072x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v11).slice (win0_3.rect t)).set ↔ _
  rw [View.set_slice_whole, Rect.mem_set_unit]
  exact Iff.rfl

/-- The sixteen row bands fill the array: row `r` is in band `r / 8192`. -/
theorem cover (i : S131072x128.Idx) : ∃ t : Fin cfg0.N, (cfg0.win 3).flush t = true ∧ i ∈ ((cfg0.win 3).blk t).view.set := by
  have hi0 : (i 0).val < 131072 := (i 0).isLt
  have hi1 : (i 1).val < 128 := (i 1).isLt
  have hN : cfg0.N = 16 := N_0
  refine ⟨⟨(i 0).val / 8192, by rw [hN]; omega⟩, flush0_3 _, ?_⟩
  rw [mem_blk]
  obtain ⟨-, -, -, -, -, -, e6, e7⟩ := idx_facts ⟨(i 0).val / 8192, by rw [hN]; omega⟩
  intro a
  match a with
  | ⟨0, _⟩ => show win0_3.index _ (0 : Fin 2) * 8192 ≤ (i 0).val ∧ (i 0).val < win0_3.index _ (0 : Fin 2) * 8192 + 8192; rw [e6]; show (i 0).val / 8192 * 8192 ≤ (i 0).val ∧ (i 0).val < (i 0).val / 8192 * 8192 + 8192; omega
  | ⟨1, _⟩ => show win0_3.index _ (1 : Fin 2) * 128 ≤ (i 1).val ∧ (i 1).val < win0_3.index _ (1 : Fin 2) * 128 + 128; rw [e7]; omega

/-- The output array after the run: the merge of the three arrays the call was launched on. -/
theorem final (c : Dev nD) : (dats m 0 c).arrAt 3 cfg0.N = merged (S := S131072x128) (V m c (Pipeline.arrRef spec0 0)) (V m c (Pipeline.arrRef spec0 1)) (V m c (Pipeline.arrRef spec0 2)) :=
  (dats m 0 c).arrAt_eq_of_cover 3 _ (fun t _ => flushed_eq m c t) cover

end Cert.KernelIdeal.HandValue

end
-- ==== Proof.KernelHost.lean ====
/-
  The kernel program's host side, read back: what the three arrays the pallas_call is launched on hold (the lengths
  and the last slots re-laid as 131072 × 128, and the free-list pages looked up at the running count of page openings,
  re-laid likewise), and what the one host line after the call leaves in the result (the call's output re-laid flat).

  The host lines before the call come in five stretches: the page-opening flags (low four bits equal to one, as a
  word), their running sum, the sum less the own flag, the free list read at those sums (negative ones counted from
  the end, a fill word where the index is outside the list), and the three re-layings. Each stretch is read once,
  from any contents of the buffers, at the one buffer the next stretch reads; the stretches are then chained.
-/
import proofs.«401829_j32212254720220_2_alg».proof.Proof.Gen.KernelIdeal.Frame
import proofs.«401829_j32212254720220_2_alg».proof.Proof.Spec
import Idealize.ShloMosaic.Lib.Pipeline.Value
import Idealize.ShloMosaic.Lib.Pipeline.Frame
import Idealize.ShloMosaic.Lib.StableHlo.Run
import Idealize.ShloMosaic.Lib.Tactic
import Idealize.ShloMosaic.PureOps.Ideal

noncomputable section

open Idealize.ShloMosaic Idealize.ShloMosaic.TcCoe Idealize.SL.Sem
open Idealize.ShloMosaic.Pipeline (Dat)

namespace Cert.PageSlot

/-- The page each sequence would take, as the kernel program looks it up: the free list at the number of sequences
    before it that open a page, and a fill word where that number is outside the list. -/
def kerPages (s fp : IVec Flat 32) : IVec Flat 32 := fun i =>
  Scalar.select (inRange (exclSum fun k => (opensPage (s k)).setWidth 32) i)
    (lookup fp (exclSum fun k => (opensPage (s k)).setWidth 32) i) 2147483648#32

end Cert.PageSlot

namespace Cert.KernelIdeal.HandStages

open Cert.KernelIdeal Cert.KernelIdeal.Gen Cert.PageSlot Idealize.ShloMosaic.StableHlo

variable {F : FTy → Type} [FloatOps F]
variable (W : Valuation τ sig (Elt F))

/-! ## The first stretch: the page-opening flags -/

/-- The word b at every index of the batch. -/
def splat (b : BitVec 32) : IVec S16777216 32 := broadcastInDim S16777216 ![] bcast_S_S16777216 (constantI S_ 32 b)

/-- The flags as the program spells them: the low four bits compared with one, widened to a word. -/
def flagsTerm (s : IVec S16777216 32) : IVec S16777216 32 :=
  extui 32 (cmpi .eq (andi s (splat 15#32)) (splat 1#32)) natLt_1_32

theorem flagsTerm_eq (s : IVec S16777216 32) : flagsTerm s = fun k => (opensPage (s k)).setWidth 32 := rfl

theorem stretch0_v4 : after hostOps0 W (Proc.devRef .tc main_v4) = flagsTerm (W (Proc.devRef .tc main_arg0)) := by
  after_results
  rfl
theorem stretch0_arg0 : after hostOps0 W (Proc.devRef .tc main_arg0) = W (Proc.devRef .tc main_arg0) := by
  after_results_simp
theorem stretch0_arg2 : after hostOps0 W (Proc.devRef .tc main_arg2) = W (Proc.devRef .tc main_arg2) := by
  after_results_simp

/-! ## The second and third: the running sum, less the own flag -/

theorem stretch1_v5 : after hostOps0_1 W (Proc.devRef .tc main_v5)
    = Host.reduceWindow IntOp.addi ![16777216] ![1] ![16777215] ![0] (W (Proc.devRef .tc main_v4) : IVec S16777216 32)
        (broadcastInDim S_ ![] bcast_S_S_ (constantI S_ 32 0#32)) reduceWindows_S16777216_S16777216_w16777216s1p16777215_0 h_S_ := by
  after_results_simp
  simp only [TRef.ofBuf, TRef.toBuf, cast_eq]
theorem stretch1_v4 : after hostOps0_1 W (Proc.devRef .tc main_v4) = W (Proc.devRef .tc main_v4) := by
  after_results_simp
theorem stretch1_arg2 : after hostOps0_1 W (Proc.devRef .tc main_arg2) = W (Proc.devRef .tc main_arg2) := by
  after_results_simp

theorem stretch2_v6 : after hostOps0_2 W (Proc.devRef .tc main_v6)
    = subi (W (Proc.devRef .tc main_v5) : IVec S16777216 32) (W (Proc.devRef .tc main_v4)) := by
  after_results
theorem stretch2_arg2 : after hostOps0_2 W (Proc.devRef .tc main_arg2) = W (Proc.devRef .tc main_arg2) := by
  after_results_simp

/-- A window sum over everything up to an index, from zero, less the entry there, is the sum over the entries before. -/
theorem exclTerm_eq (np : IVec S16777216 32) :
    subi (Host.reduceWindow IntOp.addi ![16777216] ![1] ![16777215] ![0] np
        (broadcastInDim S_ ![] bcast_S_S_ (constantI S_ 32 0#32)) reduceWindows_S16777216_S16777216_w16777216s1p16777215_0 h_S_) np
      = exclSum np := rfl

/-! ## The fourth stretch: the free list looked up at the wrapped start indices, a fill word outside it

Its twenty-two lines in five runs: the start indices wrapped and stood up as a column; the column's range test,
entry by entry; the test folded along the column; the free list read at the column; the choice between the entry
read and the fill word. -/

/-- The first eight lines: a negative start index counted from the end, the indices as one column. -/
abbrev takeCol : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S16777216, .i32⟩) (broadcastInDim S16777216 ![] bcast_S_S16777216),
    StableHlo.TRef.binary (.of main_v6 : StableHlo.TRef sig ⟨S16777216, .i32⟩) (.of main_call1_v0 : StableHlo.TRef sig ⟨S16777216, .i32⟩) (.of main_call1_v1 : StableHlo.TRef sig ⟨S16777216, .i1⟩) (cmpi .slt),
    StableHlo.TRef.nullary (.of main_call1_c_0 : StableHlo.TRef sig ⟨S_, .i32⟩) (constantI S_ 32 16777216#32),
    StableHlo.TRef.unary (.of main_call1_c_0 : StableHlo.TRef sig ⟨S_, .i32⟩) (.of main_call1_v2 : StableHlo.TRef sig ⟨S16777216, .i32⟩) (broadcastInDim S16777216 ![] bcast_S_S16777216),
    StableHlo.TRef.binary (.of main_v6 : StableHlo.TRef sig ⟨S16777216, .i32⟩) (.of main_call1_v2 : StableHlo.TRef sig ⟨S16777216, .i32⟩) (.of main_call1_v3 : StableHlo.TRef sig ⟨S16777216, .i32⟩) addi,
    StableHlo.TRef.ternary (.of main_call1_v1 : StableHlo.TRef sig ⟨S16777216, .i1⟩) (.of main_call1_v3 : StableHlo.TRef sig ⟨S16777216, .i32⟩) (.of main_v6 : StableHlo.TRef sig ⟨S16777216, .i32⟩) (.of main_call1_v4 : StableHlo.TRef sig ⟨S16777216, .i32⟩) select,
    StableHlo.TRef.unary main_call1_call0.v0 (.of main_call1_v5 : StableHlo.TRef sig ⟨S16777216x1, .i32⟩) (broadcastInDim S16777216x1 ![0] bcast_S16777216_S16777216x1_0) ]
/-- The next eight: each entry of the column tested against both ends of the list. -/
abbrev takeTest : List (HloOp τ sig (Elt F)) :=
  [ StableHlo.TRef.nullary (.of main_call1_c_1 : StableHlo.TRef sig ⟨S1, .i32⟩) (constantI S1 32 16777215#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S16777216x1, .i32⟩) (broadcastInDim S16777216x1 ![] bcast_S_S16777216x1),
    StableHlo.TRef.binary (.of main_call1_v5 : StableHlo.TRef sig ⟨S16777216x1, .i32⟩) (.of main_call1_v6 : StableHlo.TRef sig ⟨S16777216x1, .i32⟩) (.of main_call1_v7 : StableHlo.TRef sig ⟨S16777216x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S16777216x1, .i32⟩) (broadcastInDim S16777216x1 ![0, 1] bcast_S1x1_S16777216x1_0_1),
    StableHlo.TRef.binary (.of main_call1_v5 : StableHlo.TRef sig ⟨S16777216x1, .i32⟩) (.of main_call1_v9 : StableHlo.TRef sig ⟨S16777216x1, .i32⟩) (.of main_call1_v10 : StableHlo.TRef sig ⟨S16777216x1, .i1⟩) (cmpi .sle),
    StableHlo.TRef.binary (.of main_call1_v7 : StableHlo.TRef sig ⟨S16777216x1, .i1⟩) (.of main_call1_v10 : StableHlo.TRef sig ⟨S16777216x1, .i1⟩) (.of main_call1_v11 : StableHlo.TRef sig ⟨S16777216x1, .i1⟩) andi ]
/-- The test folded along the column's one-entry axis. -/
abbrev takeFold : List (HloOp τ sig (Elt F)) :=
  [ StableHlo.TRef.nullary (.of main_call1_c_3 : StableHlo.TRef sig ⟨S_, .i1⟩) (constantI S_ 1 1#1),
    StableHlo.TRef.binary (.of main_call1_v11 : StableHlo.TRef sig ⟨S16777216x1, .i1⟩) (.of main_call1_c_3 : StableHlo.TRef sig ⟨S_, .i1⟩) (.of main_call1_v12 : StableHlo.TRef sig ⟨S16777216, .i1⟩) (fun x v => Host.reduce IntOp.andi x v reducesTo_S16777216x1_S16777216_d1 h_S_) ]
/-- The free list read at the column. -/
abbrev takeRead : List (HloOp τ sig (Elt F)) :=
  [ StableHlo.TRef.binary (.of main_arg2 : StableHlo.TRef sig ⟨S16777216, .i32⟩) (.of main_call1_v5 : StableHlo.TRef sig ⟨S16777216x1, .i32⟩) (.of main_call1_v13 : StableHlo.TRef sig ⟨S16777216, .i32⟩) (fun x i => Host.gather gather_S16777216_S16777216x1_S16777216_n_0_n_n_0_1_1 x i) ]
/-- The entry read where the test holds, else the fill word. -/
abbrev takePick : List (HloOp τ sig (Elt F)) :=
  [ StableHlo.TRef.nullary (.of main_call1_c_4 : StableHlo.TRef sig ⟨S_, .i32⟩) (constantI S_ 32 2147483648#32),
    StableHlo.TRef.unary (.of main_call1_c_4 : StableHlo.TRef sig ⟨S_, .i32⟩) (.of main_call1_v14 : StableHlo.TRef sig ⟨S16777216, .i32⟩) (broadcastInDim S16777216 ![] bcast_S_S16777216),
    StableHlo.TRef.ternary (.of main_call1_v12 : StableHlo.TRef sig ⟨S16777216, .i1⟩) (.of main_call1_v13 : StableHlo.TRef sig ⟨S16777216, .i32⟩) (.of main_call1_v14 : StableHlo.TRef sig ⟨S16777216, .i32⟩) (.of main_v7 : StableHlo.TRef sig ⟨S16777216, .i32⟩) select ]

theorem take_split : (hostOps0_3 : List (HloOp τ sig (Elt F))) = takeCol ++ (takeTest ++ (takeFold ++ (takeRead ++ takePick))) := rfl

/-- The start indices, negative ones counted from the end, as one column. -/
def colTerm (st : IVec S16777216 32) : IVec S16777216x1 32 :=
  broadcastInDim S16777216x1 ![0] bcast_S16777216_S16777216x1_0
    (select (cmpi .slt st (splat 0#32)) (addi st (splat 16777216#32)) st)

theorem colTerm_eq (st : IVec S16777216 32) : colTerm st = idxCol st := rfl

/-- Each entry of a column tested against both ends of the list. -/
def testTerm (col : IVec S16777216x1 32) : IVec S16777216x1 1 :=
  andi (cmpi .sge col (broadcastInDim S16777216x1 ![] bcast_S_S16777216x1 (constantI S_ 32 0#32)))
    (cmpi .sle col (broadcastInDim S16777216x1 ![0, 1] bcast_S1x1_S16777216x1_0_1
      (broadcastInDim S1x1 ![1] bcast_S1_S1x1_1 (constantI S1 32 16777215#32))))

/-- Every entry of the column lies inside the list. -/
def rangeTerm (col : IVec S16777216x1 32) : IVec S16777216 1 :=
  Host.reduce IntOp.andi (testTerm col) (constantI S_ 1 1#1) reducesTo_S16777216x1_S16777216_d1 h_S_

attribute [local irreducible] Host.reduce in
theorem rangeTerm_eq (st : IVec S16777216 32) : rangeTerm (idxCol st) = inRange st := rfl

/-- The free list read at the column. -/
def gatherTerm (fp : IVec S16777216 32) (col : IVec S16777216x1 32) : IVec S16777216 32 :=
  Host.gather gather_S16777216_S16777216x1_S16777216_n_0_n_n_0_1_1 fp col

attribute [local irreducible] Host.gather in
theorem gatherTerm_eq (fp st : IVec S16777216 32) : gatherTerm fp (idxCol st) = lookup fp st := rfl

/-- The looked-up pages as the program composes them. -/
def takeTerm (fp st : IVec S16777216 32) : IVec S16777216 32 :=
  select (rangeTerm (colTerm st)) (gatherTerm fp (colTerm st)) (splat 2147483648#32)

theorem takeTerm_eq (fp st : IVec S16777216 32) :
    takeTerm fp st = fun i => Scalar.select (inRange st i) (lookup fp st i) 2147483648#32 := by
  unfold takeTerm
  rw [colTerm_eq, rangeTerm_eq, gatherTerm_eq]
  rfl

theorem takeCol_v5 : after takeCol W (Proc.devRef .tc main_call1_v5) = colTerm (W (Proc.devRef .tc main_v6)) := by
  after_results_simp
  simp only [TRef.ofBuf, TRef.toBuf, cast_eq]
  rfl
theorem takeCol_arg2 : after takeCol W (Proc.devRef .tc main_arg2) = W (Proc.devRef .tc main_arg2) := by
  after_results_simp

theorem takeTest_v11 : after takeTest W (Proc.devRef .tc main_call1_v11) = testTerm (W (Proc.devRef .tc main_call1_v5)) := by
  after_results_simp
  simp only [TRef.ofBuf, TRef.toBuf, cast_eq]
  rfl
theorem takeTest_v5 : after takeTest W (Proc.devRef .tc main_call1_v5) = W (Proc.devRef .tc main_call1_v5) := by
  after_results_simp
theorem takeTest_arg2 : after takeTest W (Proc.devRef .tc main_arg2) = W (Proc.devRef .tc main_arg2) := by
  after_results_simp

theorem takeFold_v12 : after takeFold W (Proc.devRef .tc main_call1_v12)
    = Host.reduce IntOp.andi (W (Proc.devRef .tc main_call1_v11) : IVec S16777216x1 1) (constantI S_ 1 1#1) reducesTo_S16777216x1_S16777216_d1 h_S_ := by
  after_results_simp
  simp only [TRef.ofBuf, TRef.toBuf, cast_eq]
theorem takeFold_v5 : after takeFold W (Proc.devRef .tc main_call1_v5) = W (Proc.devRef .tc main_call1_v5) := by
  after_results_simp
theorem takeFold_arg2 : after takeFold W (Proc.devRef .tc main_arg2) = W (Proc.devRef .tc main_arg2) := by
  after_results_simp

theorem takeRead_v13 : after takeRead W (Proc.devRef .tc main_call1_v13)
    = gatherTerm (W (Proc.devRef .tc main_arg2)) (W (Proc.devRef .tc main_call1_v5)) := by
  after_results_simp
  simp only [TRef.ofBuf, TRef.toBuf, cast_eq]
  rfl
theorem takeRead_v12 : after takeRead W (Proc.devRef .tc main_call1_v12) = W (Proc.devRef .tc main_call1_v12) := by
  after_results_simp

theorem takePick_v7 : after takePick W (Proc.devRef .tc main_v7)
    = select (W (Proc.devRef .tc main_call1_v12) : IVec S16777216 1) (W (Proc.devRef .tc main_call1_v13)) (splat 2147483648#32) := by
  after_results_simp
  simp only [TRef.ofBuf, TRef.toBuf, cast_eq]
  rfl

theorem stretch3_v7 : after hostOps0_3 W (Proc.devRef .tc main_v7)
    = takeTerm (W (Proc.devRef .tc main_arg2)) (W (Proc.devRef .tc main_v6)) := by
  rw [take_split, StableHlo.after_append, StableHlo.after_append, StableHlo.after_append, StableHlo.after_append]
  rw [takePick_v7, takeRead_v13, takeRead_v12, takeFold_v12, takeFold_v5, takeFold_arg2, takeTest_v11, takeTest_v5, takeTest_arg2,
    takeCol_v5, takeCol_arg2]
  rfl

/-! ## The fifth: the three arrays re-laid -/

theorem stretch4_v10 : after hostOps0_4 W (Proc.devRef .tc main_v10)
    = shapeCast S131072x128 (W (Proc.devRef .tc main_v7) : IVec S16777216 32) shapeCasts_S16777216_S131072x128 := by
  after_results
  rfl

/-! ## The five stretches, one after the other -/

theorem pages_eq : after (hostOps0 ++ (hostOps0_1 ++ (hostOps0_2 ++ (hostOps0_3 ++ hostOps0_4)))) W (Proc.devRef .tc main_v10)
    = shapeCast S131072x128 (kerPages (W (Proc.devRef .tc main_arg0)) (W (Proc.devRef .tc main_arg2))) shapeCasts_S16777216_S131072x128 := by
  rw [StableHlo.after_append, StableHlo.after_append, StableHlo.after_append, StableHlo.after_append]
  rw [stretch4_v10, stretch3_v7, stretch2_v6, stretch2_arg2, stretch1_v5, stretch1_v4, stretch1_arg2, stretch0_v4, stretch0_arg2]
  rw [exclTerm_eq, flagsTerm_eq, takeTerm_eq]
  rfl

end Cert.KernelIdeal.HandStages

namespace Cert.KernelIdeal.HandHost

open Cert.KernelIdeal Cert.KernelIdeal.Gen

variable (m : (ℓ : Loc nD τ sig) → Buf (Elt Ideal) ℓ)

/-- The call's first array: the lengths, re-laid. -/
theorem V_lens (c : Dev nD) :
    (V m c main_v8 : IVec S131072x128 32) = shapeCast S131072x128 (m ((c : Thread nD τ).loc main_arg0) : IVec S16777216 32) shapeCasts_S16777216_S131072x128 := by
  dsimp only [V, V0]
  simp only [hostOps0, hostOps0_1, hostOps0_2, hostOps0_3, hostOps0_4, List.flatten_cons, List.flatten_nil, List.append_nil, List.cons_append, List.nil_append]
  after_results
  rfl

/-- The call's second array: the last slots, re-laid. -/
theorem V_last (c : Dev nD) :
    (V m c main_v9 : IVec S131072x128 32) = shapeCast S131072x128 (m ((c : Thread nD τ).loc main_arg1) : IVec S16777216 32) shapeCasts_S16777216_S131072x128 := by
  dsimp only [V, V0]
  simp only [hostOps0, hostOps0_1, hostOps0_2, hostOps0_3, hostOps0_4, List.flatten_cons, List.flatten_nil, List.append_nil, List.cons_append, List.nil_append]
  after_results
  rfl

/-- The call's third array: the looked-up pages, re-laid. -/
theorem V_pages (c : Dev nD) :
    (V m c main_v10 : IVec S131072x128 32) = shapeCast S131072x128 (Cert.PageSlot.kerPages (m ((c : Thread nD τ).loc main_arg0)) (m ((c : Thread nD τ).loc main_arg2))) shapeCasts_S16777216_S131072x128 := by
  dsimp only [V, V0]
  simp only [List.flatten_cons, List.flatten_nil, List.append_nil]
  rw [Cert.KernelIdeal.HandStages.pages_eq]

/-- After the call the program's result is the call's output array, re-laid flat. -/
theorem tail_eq (c : Dev nD) :
    (Pipeline.afterTail₀ cfgs (dats m) 0 (V0 m) [hostOps1] c main_v12 : IVec S16777216 32)
      = shapeCast S16777216 ((dats m 0 c).arrAt 3 cfg0.N : IVec S131072x128 32) shapeCasts_S131072x128_S16777216 := by
  unfold Pipeline.afterTail₀
  show StableHlo.after hostOps1 _ (Proc.devRef .tc main_v12) = _
  after_results
  exact congrArg (fun z : IVec S131072x128 32 => shapeCast S16777216 z shapeCasts_S131072x128_S16777216)
    (Pipeline.withArrays_arr spec0 launch0.win.arr_inj c (V0 m c) (fun w => (dats m 0 c).arrAt w (cfgs 0).N) 3)

end Cert.KernelIdeal.HandHost

end
-- ==== Proof.KernelResult.lean ====
/-
  The kernel program's run, read back (second part): every weakly fair execution ends with the result array at the
  slot assignment `Cert.PageSlot.kerOut` of the three argument arrays, the arguments unchanged.

  The result is the pallas_call's output re-laid flat; the output is the merge of the three arrays the call was
  launched on; those are the lengths, the last slots and the looked-up pages re-laid as 131072 × 128. A merge is
  element by element, so it commutes with the re-laying, and re-laying there and back is the identity.
-/
import proofs.«401829_j32212254720220_2_alg».proof.Proof.KernelRun
import proofs.«401829_j32212254720220_2_alg».proof.Proof.KernelHost

noncomputable section

open Idealize.ShloMosaic Idealize.ShloMosaic.TcCoe Idealize.SL.Sem
open Idealize.ShloMosaic.Pipeline (Dat)

namespace Cert.KernelIdeal.HandValue

open Cert.KernelIdeal Cert.KernelIdeal.Gen

/-- A merge of three re-laid arrays, re-laid back, is the merge of the arrays. -/
theorem merged_relaid {S T : Shape} (x y z : IVec S 32) (h : S.ShapeCasts T) (h' : T.ShapeCasts S) :
    shapeCast S (merged (S := T) (shapeCast T x h) (shapeCast T y h) (shapeCast T z h)) h' = merged x y z := by
  funext i
  have e : ∀ v : IVec S 32, shapeCast T v h (Shape.reshapeEquiv h' i) = v i :=
    fun v => congrFun (shapeCast_shapeCast v h h') i
  show merged (shapeCast T x h) (shapeCast T y h) (shapeCast T z h) (Shape.reshapeEquiv h' i) = merged x y z i
  unfold merged
  rw [e x, e y, e z]

/-- The merge of the lengths, the last slots and the looked-up pages is the kernel's slot assignment. -/
theorem merged_pages (s ll fp : IVec Cert.PageSlot.Flat 32) :
    merged (S := Cert.PageSlot.Flat) s ll (Cert.PageSlot.kerPages s fp) = Cert.PageSlot.kerOut s ll fp := rfl

variable (m : (ℓ : Loc nD τ sig) → Buf (Elt Ideal) ℓ) (ρ : Dev nD → PrngReg)

/-- The call's three arrays, named as its windows name them, are the buffers the host lines before it wrote. -/
theorem arr0_eq (c : Dev nD) : V m c (Pipeline.arrRef spec0 0) = V m c main_v8 :=
  eq_of_heq (congr_arg_heq (V m c) (rfl : Pipeline.arrRef spec0 0 = main_v8))
theorem arr1_eq (c : Dev nD) : V m c (Pipeline.arrRef spec0 1) = V m c main_v9 :=
  eq_of_heq (congr_arg_heq (V m c) (rfl : Pipeline.arrRef spec0 1 = main_v9))
theorem arr2_eq (c : Dev nD) : V m c (Pipeline.arrRef spec0 2) = V m c main_v10 :=
  eq_of_heq (congr_arg_heq (V m c) (rfl : Pipeline.arrRef spec0 2 = main_v10))

/-- The program's result buffer after the run. -/
theorem result_eq (c : Dev nD) :
    (Pipeline.afterTail₀ cfgs (dats m) 0 (V0 m) [hostOps1] c main_v12 : IVec S16777216 32)
      = Cert.PageSlot.kerOut (m ((c : Thread nD τ).loc main_arg0)) (m ((c : Thread nD τ).loc main_arg1)) (m ((c : Thread nD τ).loc main_arg2)) := by
  rw [Cert.KernelIdeal.HandHost.tail_eq, final, arr0_eq, arr1_eq, arr2_eq, Cert.KernelIdeal.HandHost.V_lens, Cert.KernelIdeal.HandHost.V_last, Cert.KernelIdeal.HandHost.V_pages]
  exact (merged_relaid _ _ _ _ _).trans (merged_pages _ _ _)

/-- The run, read. -/
theorem run : θ_run (defs (F := Ideal)) (onTc (τ := τ) (main (F := Ideal))) ⟨m, fun _ => 0, ρ⟩ fun r => ∀ c : Dev nD,
      r.2.mem ((c.tc : Thread nD τ).loc main_v12)
        = Cert.PageSlot.kerOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v12 (Pipeline.mem_restRefs_of main_v12 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.HandValue

end
-- ==== Proof.lean ====
/-
  One decode step's page-slot assignment: the kernel program against its jnp reference.

  Both programs give every sequence a slot: a sequence that opens no new page takes the slot after its last one;
  a sequence that opens a page takes sixteen times an entry of the free list, the entry numbered by how many
  sequences before it open a page. The reference counts a sequence's new pages as the difference of two floor
  divisions by 16; the kernel program tests the length's low four bits against 0001, looks the page up with a
  range check of its own, and merges the three arrays in one pallas_call over sixteen row bands.

  The claim is stated under the reference's own contract that this count is 0 or 1 at every sequence. Under it the
  count IS the low-bits test (one 32-bit word at a time), so both programs read the free list at the same running
  sum; that sum of zeros and ones stays below the batch size, so the kernel program's range check always passes and
  its lookup is the reference's; and the two selections pick the same branch. The kernel program's run is read off
  its generated frame (the call's output array, the host lines around it); the reference's run is read back
  operation by operation.
-/
import proofs.«401829_j32212254720220_2_alg».proof.Defs
import proofs.«401829_j32212254720220_2_alg».proof.Proof.Gen.Kernel
import proofs.«401829_j32212254720220_2_alg».proof.Proof.Gen.Kernel.Skeleton
import proofs.«401829_j32212254720220_2_alg».proof.Proof.Gen.Kernel.Launch
import proofs.«401829_j32212254720220_2_alg».proof.Proof.Gen.Kernel.Points
import proofs.«401829_j32212254720220_2_alg».proof.Proof.Gen.Kernel.Frame
import proofs.«401829_j32212254720220_2_alg».proof.Proof.Gen.KernelIdeal
import proofs.«401829_j32212254720220_2_alg».proof.Proof.Gen.KernelIdeal.Skeleton
import proofs.«401829_j32212254720220_2_alg».proof.Proof.Gen.KernelIdeal.Launch
import proofs.«401829_j32212254720220_2_alg».proof.Proof.Gen.KernelIdeal.Points
import proofs.«401829_j32212254720220_2_alg».proof.Proof.Gen.KernelIdeal.Frame
import proofs.«401829_j32212254720220_2_alg».proof.Proof.Gen.ReferenceIdeal
import proofs.«401829_j32212254720220_2_alg».proof.Proof.Gen.Pre_any_inputs
import proofs.«401829_j32212254720220_2_alg».proof.Proof.Spec
import proofs.«401829_j32212254720220_2_alg».proof.Proof.PreDecode
import proofs.«401829_j32212254720220_2_alg».proof.Proof.Bridge
import proofs.«401829_j32212254720220_2_alg».proof.Proof.RefRun
import proofs.«401829_j32212254720220_2_alg».proof.Proof.KernelResult
import Idealize.ShloMosaic.Adequacy
import Idealize.ShloMosaic.Init

noncomputable section

namespace Cert.Proof

open Idealize.ShloMosaic Idealize.SL.Sem

/-- The reference runs and keeps its arguments: its run with the result dropped. -/
theorem frame_reference : Cert.frame_ReferenceIdeal := fun m ρ _ =>
  (θ_run Cert.ReferenceIdeal.defs _ _).mono (fun _ h c => (h c).2) (Cert.ReferenceIdeal.HandRun.run m ρ)

/-- From memories agreeing on the three arguments both programs end at one slot assignment: the kernel program's
    `kerOut` and the reference's `refOut` are one function where every page count is 0 or 1, which the precondition
    says at every index. -/
theorem algebraic : Cert.algebraic_KernelIdeal_ReferenceIdeal := by
  intro m ρ m' ρ' hpre hagree
  refine ⟨fun c => Cert.PageSlot.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.HandValue.run m ρ, ?_⟩
  refine (θ_run Cert.ReferenceIdeal.defs _ _).mono (fun _ h c => ⟨(h c).1.trans ?_, (h c).2⟩)
    (Cert.ReferenceIdeal.HandRun.run m' ρ')
  rw [(hagree c).1, (hagree c).2.1, (hagree c).2.2]
  exact Cert.PageSlot.refOut_eq_kerOut _ _ _ (fun i => Cert.PageSlot.newPages_of_pre _ _ _ (hpre c) i)

theorem claim : Cert.Claim := ⟨Cert.Kernel.Gen.facts, Cert.KernelIdeal.Gen.facts, Cert.ReferenceIdeal.Gen.facts, Cert.Pre_any_inputs.Gen.facts,
  fun m ρ _ => Cert.Kernel.Gen.frame m ρ,
  fun m ρ _ => Cert.KernelIdeal.Gen.frame m ρ,
  frame_reference,
  trivial,
  algebraic⟩

end Cert.Proof

end
